-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x112x112 : Shape := ⟨4, ![4, 64, 112, 112]⟩
abbrev S_ : Shape := ⟨0, ![]⟩

class Facts : Prop where
  bcast_S_S4x64x112x112 : S_.BroadcastsInDim S4x64x112x112 (![] : Fin 0 → Fin S4x64x112x112.rank)
  reducesTo_S4x64x112x112_S_d0_1_2_3 : S4x64x112x112.ReducesTo [0, 1, 2, 3] S_
  h_S_ : 0 < S_.numel

variable [Facts]

def fn {F : FTy → Type} [FloatOps F] (main_arg0 : FVec F S4x64x112x112 .f32) : IVec S_ 1 :=
  let main_v0 : FVec F S4x64x112x112 .f32 := Host.absf main_arg0
  let main_cst : FVec F S_ .f32 := constant S_ .f32 0x7F800000#32
  let main_v1 : FVec F S4x64x112x112 .f32 := broadcastInDim S4x64x112x112 ![] bcast_S_S4x64x112x112 main_cst
  let main_v2 : IVec S4x64x112x112 1 := cmpf .olt main_v0 main_v1
  let main_c : IVec S_ 1 := constantI S_ 1 1#1
  let main_v3 : IVec S_ 1 := (fun x v => Host.reduce IntOp.andi x v reducesTo_S4x64x112x112_S_d0_1_2_3 h_S_) main_v2 main_c
  main_v3
-- ==== Kernel.lean ====
abbrev S4x64x112x112 : Shape := ⟨4, ![4, 64, 112, 112]⟩
abbrev S256x112x112 : Shape := ⟨3, ![256, 112, 112]⟩
abbrev S_ : Shape := ⟨0, ![]⟩
abbrev S256x1x112 : Shape := ⟨3, ![256, 1, 112]⟩
abbrev S256x3x112 : Shape := ⟨3, ![256, 3, 112]⟩
abbrev S256x115x112 : Shape := ⟨3, ![256, 115, 112]⟩
abbrev S256x118x112 : Shape := ⟨3, ![256, 118, 112]⟩
abbrev S256x118x1 : Shape := ⟨3, ![256, 118, 1]⟩
abbrev S256x118x3 : Shape := ⟨3, ![256, 118, 3]⟩
abbrev S256x118x115 : Shape := ⟨3, ![256, 118, 115]⟩
abbrev S256x118x118 : Shape := ⟨3, ![256, 118, 118]⟩
abbrev S256x49x112x112 : Shape := ⟨4, ![256, 49, 112, 112]⟩
abbrev S8x118x118 : Shape := ⟨3, ![8, 118, 118]⟩
abbrev S8x49x112x112 : Shape := ⟨4, ![8, 49, 112, 112]⟩
abbrev S8x112x112 : Shape := ⟨3, ![8, 112, 112]⟩
abbrev S8x1x112x112 : Shape := ⟨4, ![8, 1, 112, 112]⟩
abbrev S4x64x49x12544 : Shape := ⟨4, ![4, 64, 49, 12544]⟩

abbrev nBuf : Space → Nat
  | .hbm => 21
  | .vmem => 4
  | .smem => 0
  | _ => 0

abbrev bufTy : (tb : Table) → Fin (tcTables nBuf tb) → BufTy
  | .hbm, ⟨0, _⟩ => ⟨S4x64x112x112, .f32⟩
  | .hbm, ⟨1, _⟩ => ⟨S256x112x112, .f32⟩
  | .hbm, ⟨2, _⟩ => ⟨S_, .i32⟩
  | .hbm, ⟨3, _⟩ => ⟨S256x1x112, .f32⟩
  | .hbm, ⟨4, _⟩ => ⟨S256x3x112, .f32⟩
  | .hbm, ⟨5, _⟩ => ⟨S256x3x112, .f32⟩
  | .hbm, ⟨6, _⟩ => ⟨S256x115x112, .f32⟩
  | .hbm, ⟨7, _⟩ => ⟨S256x1x112, .f32⟩
  | .hbm, ⟨8, _⟩ => ⟨S256x3x112, .f32⟩
  | .hbm, ⟨9, _⟩ => ⟨S256x3x112, .f32⟩
  | .hbm, ⟨10, _⟩ => ⟨S256x118x112, .f32⟩
  | .hbm, ⟨11, _⟩ => ⟨S256x118x1, .f32⟩
  | .hbm, ⟨12, _⟩ => ⟨S256x118x3, .f32⟩
  | .hbm, ⟨13, _⟩ => ⟨S256x118x3, .f32⟩
  | .hbm, ⟨14, _⟩ => ⟨S256x118x115, .f32⟩
  | .hbm, ⟨15, _⟩ => ⟨S256x118x1, .f32⟩
  | .hbm, ⟨16, _⟩ => ⟨S256x118x3, .f32⟩
  | .hbm, ⟨17, _⟩ => ⟨S256x118x3, .f32⟩
  | .hbm, ⟨18, _⟩ => ⟨S256x118x118, .f32⟩
  | .hbm, ⟨19, _⟩ => ⟨S256x49x112x112, .f32⟩
  | .hbm, ⟨20, _⟩ => ⟨S4x64x49x12544, .f32⟩
  | .local _ .vmem, ⟨0, _⟩ => ⟨S8x118x118, .f32⟩
  | .local _ .vmem, ⟨1, _⟩ => ⟨S8x118x118, .f32⟩
  | .local _ .vmem, ⟨2, _⟩ => ⟨S8x49x112x112, .f32⟩
  | .local _ .vmem, ⟨3, _⟩ => ⟨S8x49x112x112, .f32⟩
  | _, _ => ⟨S4x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x118x118 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x49x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x64x112x112_S256x112x112 : S4x64x112x112.ShapeCasts S256x112x112
  slices_S256x112x112_S256x1x112_0_0_0 : S256x112x112.Slices ![0, 0, 0] S256x1x112
  slices_S256x112x112_S256x3x112_0_1_0 : S256x112x112.Slices ![0, 1, 0] S256x3x112
  concatenates_S256x3x112_S256x112x112_S256x115x112_d1 : Shape.Concatenates [S256x3x112, S256x112x112] S256x115x112 1
  slices_S256x115x112_S256x1x112_0_114_0 : S256x115x112.Slices ![0, 114, 0] S256x1x112
  slices_S256x115x112_S256x3x112_0_111_0 : S256x115x112.Slices ![0, 111, 0] S256x3x112
  concatenates_S256x115x112_S256x3x112_S256x118x112_d1 : Shape.Concatenates [S256x115x112, S256x3x112] S256x118x112 1
  slices_S256x118x112_S256x118x1_0_0_0 : S256x118x112.Slices ![0, 0, 0] S256x118x1
  slices_S256x118x112_S256x118x3_0_0_1 : S256x118x112.Slices ![0, 0, 1] S256x118x3
  concatenates_S256x118x3_S256x118x112_S256x118x115_d2 : Shape.Concatenates [S256x118x3, S256x118x112] S256x118x115 2
  slices_S256x118x115_S256x118x1_0_0_114 : S256x118x115.Slices ![0, 0, 114] S256x118x1
  slices_S256x118x115_S256x118x3_0_0_111 : S256x118x115.Slices ![0, 0, 111] S256x118x3
  concatenates_S256x118x115_S256x118x3_S256x118x118_d2 : Shape.Concatenates [S256x118x115, S256x118x3] S256x118x118 2
  inb_S8x118x118_S8x112x112_0_3_3 : ∀ a, (![0, 3, 3] : Fin 3 → Nat) a + S8x112x112.size a ≤ S8x118x118.size a
  h_S8x112x112 : 0 < S8x112x112.numel
  shapeCasts_S8x112x112_S8x112x112 : S8x112x112.ShapeCasts S8x112x112
  inb_S8x118x118_S8x112x112_0_0_0 : ∀ a, (![0, 0, 0] : Fin 3 → Nat) a + S8x112x112.size a ≤ S8x118x118.size a
  inb_S8x49x112x112_S8x1x112x112_0_0_0_0 : ∀ a, (![0, 0, 0, 0] : Fin 4 → Nat) a + S8x1x112x112.size a ≤ S8x49x112x112.size a
  h_S8x1x112x112 : 0 < S8x1x112x112.numel
  shapeCasts_S8x1x112x112_S8x112x112 : S8x1x112x112.ShapeCasts S8x112x112
  shapeCasts_S8x112x112_S8x1x112x112 : S8x112x112.ShapeCasts S8x1x112x112
  inb_S8x118x118_S8x112x112_0_0_1 : ∀ a, (![0, 0, 1] : Fin 3 → Nat) a + S8x112x112.size a ≤ S8x118x118.size a
  inb_S8x49x112x112_S8x1x112x112_0_1_0_0 : ∀ a, (![0, 1, 0, 0] : Fin 4 → Nat) a + S8x1x112x112.size a ≤ S8x49x112x112.size a
  inb_S8x118x118_S8x112x112_0_0_2 : ∀ a, (![0, 0, 2] : Fin 3 → Nat) a + S8x112x112.size a ≤ S8x118x118.size a
  inb_S8x49x112x112_S8x1x112x112_0_2_0_0 : ∀ a, (![0, 2, 0, 0] : Fin 4 → Nat) a + S8x1x112x112.size a ≤ S8x49x112x112.size a
  inb_S8x118x118_S8x112x112_0_0_3 : ∀ a, (![0, 0, 3] : Fin 3 → Nat) a + S8x112x112.size a ≤ S8x118x118.size a
  inb_S8x49x112x112_S8x1x112x112_0_3_0_0 : ∀ a, (![0, 3, 0, 0] : Fin 4 → Nat) a + S8x1x112x112.size a ≤ S8x49x112x112.size a
  inb_S8x118x118_S8x112x112_0_0_4 : ∀ a, (![0, 0, 4] : Fin 3 → Nat) a + S8x112x112.size a ≤ S8x118x118.size a
  inb_S8x49x112x112_S8x1x112x112_0_4_0_0 : ∀ a, (![0, 4, 0, 0] : Fin 4 → Nat) a + S8x1x112x112.size a ≤ S8x49x112x112.size a
  inb_S8x118x118_S8x112x112_0_0_5 : ∀ a, (![0, 0, 5] : Fin 3 → Nat) a + S8x112x112.size a ≤ S8x118x118.size a
  inb_S8x49x112x112_S8x1x112x112_0_5_0_0 : ∀ a, (![0, 5, 0, 0] : Fin 4 → Nat) a + S8x1x112x112.size a ≤ S8x49x112x112.size a
  inb_S8x118x118_S8x112x112_0_0_6 : ∀ a, (![0, 0, 6] : Fin 3 → Nat) a + S8x112x112.size a ≤ S8x118x118.size a
  inb_S8x49x112x112_S8x1x112x112_0_6_0_0 : ∀ a, (![0, 6, 0, 0] : Fin 4 → Nat) a + S8x1x112x112.size a ≤ S8x49x112x112.size a
  inb_S8x118x118_S8x112x112_0_1_0 : ∀ a, (![0, 1, 0] : Fin 3 → Nat) a + S8x112x112.size a ≤ S8x118x118.size a
  inb_S8x49x112x112_S8x1x112x112_0_7_0_0 : ∀ a, (![0, 7, 0, 0] : Fin 4 → Nat) a + S8x1x112x112.size a ≤ S8x49x112x112.size a
  inb_S8x118x118_S8x112x112_0_1_1 : ∀ a, (![0, 1, 1] : Fin 3 → Nat) a + S8x112x112.size a ≤ S8x118x118.size a
  inb_S8x49x112x112_S8x1x112x112_0_8_0_0 : ∀ a, (![0, 8, 0, 0] : Fin 4 → Nat) a + S8x1x112x112.size a ≤ S8x49x112x112.size a
  inb_S8x118x118_S8x112x112_0_1_2 : ∀ a, (![0, 1, 2] : Fin 3 → Nat) a + S8x112x112.size a ≤ S8x118x118.size a
  inb_S8x49x112x112_S8x1x112x112_0_9_0_0 : ∀ a, (![0, 9, 0, 0] : Fin 4 → Nat) a + S8x1x112x112.size a ≤ S8x49x112x112.size a
  inb_S8x118x118_S8x112x112_0_1_3 : ∀ a, (![0, 1, 3] : Fin 3 → Nat) a + S8x112x112.size a ≤ S8x118x118.size a
  inb_S8x49x112x112_S8x1x112x112_0_10_0_0 : ∀ a, (![0, 10, 0, 0] : Fin 4 → Nat) a + S8x1x112x112.size a ≤ S8x49x112x112.size a
  inb_S8x118x118_S8x112x112_0_1_4 : ∀ a, (![0, 1, 4] : Fin 3 → Nat) a + S8x112x112.size a ≤ S8x118x118.size a
  inb_S8x49x112x112_S8x1x112x112_0_11_0_0 : ∀ a, (![0, 11, 0, 0] : Fin 4 → Nat) a + S8x1x112x112.size a ≤ S8x49x112x112.size a
  inb_S8x118x118_S8x112x112_0_1_5 : ∀ a, (![0, 1, 5] : Fin 3 → Nat) a + S8x112x112.size a ≤ S8x118x118.size a
  inb_S8x49x112x112_S8x1x112x112_0_12_0_0 : ∀ a, (![0, 12, 0, 0] : Fin 4 → Nat) a + S8x1x112x112.size a ≤ S8x49x112x112.size a
  inb_S8x118x118_S8x112x112_0_1_6 : ∀ a, (![0, 1, 6] : Fin 3 → Nat) a + S8x112x112.size a ≤ S8x118x118.size a
  inb_S8x49x112x112_S8x1x112x112_0_13_0_0 : ∀ a, (![0, 13, 0, 0] : Fin 4 → Nat) a + S8x1x112x112.size a ≤ S8x49x112x112.size a
  inb_S8x118x118_S8x112x112_0_2_0 : ∀ a, (![0, 2, 0] : Fin 3 → Nat) a + S8x112x112.size a ≤ S8x118x118.size a
  inb_S8x49x112x112_S8x1x112x112_0_14_0_0 : ∀ a, (![0, 14, 0, 0] : Fin 4 → Nat) a + S8x1x112x112.size a ≤ S8x49x112x112.size a
  inb_S8x118x118_S8x112x112_0_2_1 : ∀ a, (![0, 2, 1] : Fin 3 → Nat) a + S8x112x112.size a ≤ S8x118x118.size a
  inb_S8x49x112x112_S8x1x112x112_0_15_0_0 : ∀ a, (![0, 15, 0, 0] : Fin 4 → Nat) a + S8x1x112x112.size a ≤ S8x49x112x112.size a
  inb_S8x118x118_S8x112x112_0_2_2 : ∀ a, (![0, 2, 2] : Fin 3 → Nat) a + S8x112x112.size a ≤ S8x118x118.size a
  inb_S8x49x112x112_S8x1x112x112_0_16_0_0 : ∀ a, (![0, 16, 0, 0] : Fin 4 → Nat) a + S8x1x112x112.size a ≤ S8x49x112x112.size a
  inb_S8x118x118_S8x112x112_0_2_3 : ∀ a, (![0, 2, 3] : Fin 3 → Nat) a + S8x112x112.size a ≤ S8x118x118.size a
  inb_S8x49x112x112_S8x1x112x112_0_17_0_0 : ∀ a, (![0, 17, 0, 0] : Fin 4 → Nat) a + S8x1x112x112.size a ≤ S8x49x112x112.size a
  inb_S8x118x118_S8x112x112_0_2_4 : ∀ a, (![0, 2, 4] : Fin 3 → Nat) a + S8x112x112.size a ≤ S8x118x118.size a
  inb_S8x49x112x112_S8x1x112x112_0_18_0_0 : ∀ a, (![0, 18, 0, 0] : Fin 4 → Nat) a + S8x1x112x112.size a ≤ S8x49x112x112.size a
  inb_S8x118x118_S8x112x112_0_2_5 : ∀ a, (![0, 2, 5] : Fin 3 → Nat) a + S8x112x112.size a ≤ S8x118x118.size a
  inb_S8x49x112x112_S8x1x112x112_0_19_0_0 : ∀ a, (![0, 19, 0, 0] : Fin 4 → Nat) a + S8x1x112x112.size a ≤ S8x49x112x112.size a
  inb_S8x118x118_S8x112x112_0_2_6 : ∀ a, (![0, 2, 6] : Fin 3 → Nat) a + S8x112x112.size a ≤ S8x118x118.size a
  inb_S8x49x112x112_S8x1x112x112_0_20_0_0 : ∀ a, (![0, 20, 0, 0] : Fin 4 → Nat) a + S8x1x112x112.size a ≤ S8x49x112x112.size a
  inb_S8x118x118_S8x112x112_0_3_0 : ∀ a, (![0, 3, 0] : Fin 3 → Nat) a + S8x112x112.size a ≤ S8x118x118.size a
  inb_S8x49x112x112_S8x1x112x112_0_21_0_0 : ∀ a, (![0, 21, 0, 0] : Fin 4 → Nat) a + S8x1x112x112.size a ≤ S8x49x112x112.size a
  inb_S8x118x118_S8x112x112_0_3_1 : ∀ a, (![0, 3, 1] : Fin 3 → Nat) a + S8x112x112.size a ≤ S8x118x118.size a
  inb_S8x49x112x112_S8x1x112x112_0_22_0_0 : ∀ a, (![0, 22, 0, 0] : Fin 4 → Nat) a + S8x1x112x112.size a ≤ S8x49x112x112.size a
  inb_S8x118x118_S8x112x112_0_3_2 : ∀ a, (![0, 3, 2] : Fin 3 → Nat) a + S8x112x112.size a ≤ S8x118x118.size a
  inb_S8x49x112x112_S8x1x112x112_0_23_0_0 : ∀ a, (![0, 23, 0, 0] : Fin 4 → Nat) a + S8x1x112x112.size a ≤ S8x49x112x112.size a
  inb_S8x49x112x112_S8x1x112x112_0_24_0_0 : ∀ a, (![0, 24, 0, 0] : Fin 4 → Nat) a + S8x1x112x112.size a ≤ S8x49x112x112.size a
  inb_S8x118x118_S8x112x112_0_3_4 : ∀ a, (![0, 3, 4] : Fin 3 → Nat) a + S8x112x112.size a ≤ S8x118x118.size a
  inb_S8x49x112x112_S8x1x112x112_0_25_0_0 : ∀ a, (![0, 25, 0, 0] : Fin 4 → Nat) a + S8x1x112x112.size a ≤ S8x49x112x112.size a
  inb_S8x118x118_S8x112x112_0_3_5 : ∀ a, (![0, 3, 5] : Fin 3 → Nat) a + S8x112x112.size a ≤ S8x118x118.size a
  inb_S8x49x112x112_S8x1x112x112_0_26_0_0 : ∀ a, (![0, 26, 0, 0] : Fin 4 → Nat) a + S8x1x112x112.size a ≤ S8x49x112x112.size a
  inb_S8x118x118_S8x112x112_0_3_6 : ∀ a, (![0, 3, 6] : Fin 3 → Nat) a + S8x112x112.size a ≤ S8x118x118.size a
  inb_S8x49x112x112_S8x1x112x112_0_27_0_0 : ∀ a, (![0, 27, 0, 0] : Fin 4 → Nat) a + S8x1x112x112.size a ≤ S8x49x112x112.size a
  inb_S8x118x118_S8x112x112_0_4_0 : ∀ a, (![0, 4, 0] : Fin 3 → Nat) a + S8x112x112.size a ≤ S8x118x118.size a
  inb_S8x49x112x112_S8x1x112x112_0_28_0_0 : ∀ a, (![0, 28, 0, 0] : Fin 4 → Nat) a + S8x1x112x112.size a ≤ S8x49x112x112.size a
  inb_S8x118x118_S8x112x112_0_4_1 : ∀ a, (![0, 4, 1] : Fin 3 → Nat) a + S8x112x112.size a ≤ S8x118x118.size a
  inb_S8x49x112x112_S8x1x112x112_0_29_0_0 : ∀ a, (![0, 29, 0, 0] : Fin 4 → Nat) a + S8x1x112x112.size a ≤ S8x49x112x112.size a
  inb_S8x118x118_S8x112x112_0_4_2 : ∀ a, (![0, 4, 2] : Fin 3 → Nat) a + S8x112x112.size a ≤ S8x118x118.size a
  inb_S8x49x112x112_S8x1x112x112_0_30_0_0 : ∀ a, (![0, 30, 0, 0] : Fin 4 → Nat) a + S8x1x112x112.size a ≤ S8x49x112x112.size a
  inb_S8x118x118_S8x112x112_0_4_3 : ∀ a, (![0, 4, 3] : Fin 3 → Nat) a + S8x112x112.size a ≤ S8x118x118.size a
  inb_S8x49x112x112_S8x1x112x112_0_31_0_0 : ∀ a, (![0, 31, 0, 0] : Fin 4 → Nat) a + S8x1x112x112.size a ≤ S8x49x112x112.size a
  inb_S8x118x118_S8x112x112_0_4_4 : ∀ a, (![0, 4, 4] : Fin 3 → Nat) a + S8x112x112.size a ≤ S8x118x118.size a
  inb_S8x49x112x112_S8x1x112x112_0_32_0_0 : ∀ a, (![0, 32, 0, 0] : Fin 4 → Nat) a + S8x1x112x112.size a ≤ S8x49x112x112.size a
  inb_S8x118x118_S8x112x112_0_4_5 : ∀ a, (![0, 4, 5] : Fin 3 → Nat) a + S8x112x112.size a ≤ S8x118x118.size a
  inb_S8x49x112x112_S8x1x112x112_0_33_0_0 : ∀ a, (![0, 33, 0, 0] : Fin 4 → Nat) a + S8x1x112x112.size a ≤ S8x49x112x112.size a
  inb_S8x118x118_S8x112x112_0_4_6 : ∀ a, (![0, 4, 6] : Fin 3 → Nat) a + S8x112x112.size a ≤ S8x118x118.size a
  inb_S8x49x112x112_S8x1x112x112_0_34_0_0 : ∀ a, (![0, 34, 0, 0] : Fin 4 → Nat) a + S8x1x112x112.size a ≤ S8x49x112x112.size a
  inb_S8x118x118_S8x112x112_0_5_0 : ∀ a, (![0, 5, 0] : Fin 3 → Nat) a + S8x112x112.size a ≤ S8x118x118.size a
  inb_S8x49x112x112_S8x1x112x112_0_35_0_0 : ∀ a, (![0, 35, 0, 0] : Fin 4 → Nat) a + S8x1x112x112.size a ≤ S8x49x112x112.size a
  inb_S8x118x118_S8x112x112_0_5_1 : ∀ a, (![0, 5, 1] : Fin 3 → Nat) a + S8x112x112.size a ≤ S8x118x118.size a
  inb_S8x49x112x112_S8x1x112x112_0_36_0_0 : ∀ a, (![0, 36, 0, 0] : Fin 4 → Nat) a + S8x1x112x112.size a ≤ S8x49x112x112.size a
  inb_S8x118x118_S8x112x112_0_5_2 : ∀ a, (![0, 5, 2] : Fin 3 → Nat) a + S8x112x112.size a ≤ S8x118x118.size a
  inb_S8x49x112x112_S8x1x112x112_0_37_0_0 : ∀ a, (![0, 37, 0, 0] : Fin 4 → Nat) a + S8x1x112x112.size a ≤ S8x49x112x112.size a
  inb_S8x118x118_S8x112x112_0_5_3 : ∀ a, (![0, 5, 3] : Fin 3 → Nat) a + S8x112x112.size a ≤ S8x118x118.size a
  inb_S8x49x112x112_S8x1x112x112_0_38_0_0 : ∀ a, (![0, 38, 0, 0] : Fin 4 → Nat) a + S8x1x112x112.size a ≤ S8x49x112x112.size a
  inb_S8x118x118_S8x112x112_0_5_4 : ∀ a, (![0, 5, 4] : Fin 3 → Nat) a + S8x112x112.size a ≤ S8x118x118.size a
  inb_S8x49x112x112_S8x1x112x112_0_39_0_0 : ∀ a, (![0, 39, 0, 0] : Fin 4 → Nat) a + S8x1x112x112.size a ≤ S8x49x112x112.size a
  inb_S8x118x118_S8x112x112_0_5_5 : ∀ a, (![0, 5, 5] : Fin 3 → Nat) a + S8x112x112.size a ≤ S8x118x118.size a
  inb_S8x49x112x112_S8x1x112x112_0_40_0_0 : ∀ a, (![0, 40, 0, 0] : Fin 4 → Nat) a + S8x1x112x112.size a ≤ S8x49x112x112.size a
  inb_S8x118x118_S8x112x112_0_5_6 : ∀ a, (![0, 5, 6] : Fin 3 → Nat) a + S8x112x112.size a ≤ S8x118x118.size a
  inb_S8x49x112x112_S8x1x112x112_0_41_0_0 : ∀ a, (![0, 41, 0, 0] : Fin 4 → Nat) a + S8x1x112x112.size a ≤ S8x49x112x112.size a
  inb_S8x118x118_S8x112x112_0_6_0 : ∀ a, (![0, 6, 0] : Fin 3 → Nat) a + S8x112x112.size a ≤ S8x118x118.size a
  inb_S8x49x112x112_S8x1x112x112_0_42_0_0 : ∀ a, (![0, 42, 0, 0] : Fin 4 → Nat) a + S8x1x112x112.size a ≤ S8x49x112x112.size a
  inb_S8x118x118_S8x112x112_0_6_1 : ∀ a, (![0, 6, 1] : Fin 3 → Nat) a + S8x112x112.size a ≤ S8x118x118.size a
  inb_S8x49x112x112_S8x1x112x112_0_43_0_0 : ∀ a, (![0, 43, 0, 0] : Fin 4 → Nat) a + S8x1x112x112.size a ≤ S8x49x112x112.size a
  inb_S8x118x118_S8x112x112_0_6_2 : ∀ a, (![0, 6, 2] : Fin 3 → Nat) a + S8x112x112.size a ≤ S8x118x118.size a
  inb_S8x49x112x112_S8x1x112x112_0_44_0_0 : ∀ a, (![0, 44, 0, 0] : Fin 4 → Nat) a + S8x1x112x112.size a ≤ S8x49x112x112.size a
  inb_S8x118x118_S8x112x112_0_6_3 : ∀ a, (![0, 6, 3] : Fin 3 → Nat) a + S8x112x112.size a ≤ S8x118x118.size a
  inb_S8x49x112x112_S8x1x112x112_0_45_0_0 : ∀ a, (![0, 45, 0, 0] : Fin 4 → Nat) a + S8x1x112x112.size a ≤ S8x49x112x112.size a
  inb_S8x118x118_S8x112x112_0_6_4 : ∀ a, (![0, 6, 4] : Fin 3 → Nat) a + S8x112x112.size a ≤ S8x118x118.size a
  inb_S8x49x112x112_S8x1x112x112_0_46_0_0 : ∀ a, (![0, 46, 0, 0] : Fin 4 → Nat) a + S8x1x112x112.size a ≤ S8x49x112x112.size a
  inb_S8x118x118_S8x112x112_0_6_5 : ∀ a, (![0, 6, 5] : Fin 3 → Nat) a + S8x112x112.size a ≤ S8x118x118.size a
  inb_S8x49x112x112_S8x1x112x112_0_47_0_0 : ∀ a, (![0, 47, 0, 0] : Fin 4 → Nat) a + S8x1x112x112.size a ≤ S8x49x112x112.size a
  inb_S8x118x118_S8x112x112_0_6_6 : ∀ a, (![0, 6, 6] : Fin 3 → Nat) a + S8x112x112.size a ≤ S8x118x118.size a
  inb_S8x49x112x112_S8x1x112x112_0_48_0_0 : ∀ a, (![0, 48, 0, 0] : Fin 4 → Nat) a + S8x1x112x112.size a ≤ S8x49x112x112.size a
  shapeCasts_S256x49x112x112_S4x64x49x12544 : S256x49x112x112.ShapeCasts S4x64x49x12544
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x118x118.size a ≤ S256x118x118.size a
  hwx0_0 : ∀ i : grid0.Coords, EltTy.bits .f32 = 32 ∨ (Rect.block (s := S256x118x118) S8x118x118.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x49x112x112.size a ≤ S256x49x112x112.size a
  hwx0_1 : ∀ i : grid0.Coords, EltTy.bits .f32 = 32 ∨ (Rect.block (s := S256x49x112x112) S8x49x112x112.size (cc0_transform_1 i) (hinb0_1 i)).WholeWords (EltTy.packing .f32)

variable [Facts₀]

abbrev win0_0 : Pipeline.Window sig grid0 :=
  Pipeline.Window.ofSpec (Memref.whole main_v1) S8x118x118.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x49x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x64x112x112 : Shape := ⟨4, ![4, 64, 112, 112]⟩
abbrev S_ : Shape := ⟨0, ![]⟩
abbrev S4x64x1x112 : Shape := ⟨4, ![4, 64, 1, 112]⟩
abbrev S4x64x3x112 : Shape := ⟨4, ![4, 64, 3, 112]⟩
abbrev S4x64x115x112 : Shape := ⟨4, ![4, 64, 115, 112]⟩
abbrev S4x64x118x112 : Shape := ⟨4, ![4, 64, 118, 112]⟩
abbrev S4x64x118x1 : Shape := ⟨4, ![4, 64, 118, 1]⟩
abbrev S4x64x118x3 : Shape := ⟨4, ![4, 64, 118, 3]⟩
abbrev S4x64x118x115 : Shape := ⟨4, ![4, 64, 118, 115]⟩
abbrev S4x64x118x118 : Shape := ⟨4, ![4, 64, 118, 118]⟩
abbrev S7 : Shape := ⟨1, ![7]⟩
abbrev S112 : Shape := ⟨1, ![112]⟩
abbrev S112x1 : Shape := ⟨2, ![112, 1]⟩
abbrev S1x7 : Shape := ⟨2, ![1, 7]⟩
abbrev S112x7 : Shape := ⟨2, ![112, 7]⟩
abbrev S112x7x1x1 : Shape := ⟨4, ![112, 7, 1, 1]⟩
abbrev S1x1x112x7 : Shape := ⟨4, ![1, 1, 112, 7]⟩
abbrev S112x7x112x7 : Shape := ⟨4, ![112, 7, 112, 7]⟩
abbrev S112x7x112x7x1 : Shape := ⟨5, ![112, 7, 112, 7, 1]⟩
abbrev S112x7x112x7x2 : Shape := ⟨5, ![112, 7, 112, 7, 2]⟩
abbrev S4x64x112x7x112x7 : Shape := ⟨6, ![4, 64, 112, 7, 112, 7]⟩
abbrev S4x64x7x7x112x112 : Shape := ⟨6, ![4, 64, 7, 7, 112, 112]⟩
abbrev S4x64x49x12544 : Shape := ⟨4, ![4, 64, 49, 12544]⟩
abbrev S4x64x1x12544 : Shape := ⟨4, ![4, 64, 1, 12544]⟩

abbrev nBuf : Space → Nat
  | .hbm => 67
  | .vmem => 0
  | .smem => 0
  | _ => 0

abbrev bufTy : (tb : Table) → Fin (tcTables nBuf tb) → BufTy
  | .hbm, ⟨0, _⟩ => ⟨S4x64x112x112, .f32⟩
  | .hbm, ⟨1, _⟩ => ⟨S_, .i32⟩
  | .hbm, ⟨2, _⟩ => ⟨S4x64x1x112, .f32⟩
  | .hbm, ⟨3, _⟩ => ⟨S4x64x3x112, .f32⟩
  | .hbm, ⟨4, _⟩ => ⟨S4x64x3x112, .f32⟩
  | .hbm, ⟨5, _⟩ => ⟨S4x64x115x112, .f32⟩
  | .hbm, ⟨6, _⟩ => ⟨S4x64x1x112, .f32⟩
  | .hbm, ⟨7, _⟩ => ⟨S4x64x3x112, .f32⟩
  | .hbm, ⟨8, _⟩ => ⟨S4x64x3x112, .f32⟩
  | .hbm, ⟨9, _⟩ => ⟨S4x64x118x112, .f32⟩
  | .hbm, ⟨10, _⟩ => ⟨S4x64x118x1, .f32⟩
  | .hbm, ⟨11, _⟩ => ⟨S4x64x118x3, .f32⟩
  | .hbm, ⟨12, _⟩ => ⟨S4x64x118x3, .f32⟩
  | .hbm, ⟨13, _⟩ => ⟨S4x64x118x115, .f32⟩
  | .hbm, ⟨14, _⟩ => ⟨S4x64x118x1, .f32⟩
  | .hbm, ⟨15, _⟩ => ⟨S4x64x118x3, .f32⟩
  | .hbm, ⟨16, _⟩ => ⟨S4x64x118x3, .f32⟩
  | .hbm, ⟨17, _⟩ => ⟨S4x64x118x118, .f32⟩
  | .hbm, ⟨18, _⟩ => ⟨S7, .i32⟩
  | .hbm, ⟨19, _⟩ => ⟨S_, .i32⟩
  | .hbm, ⟨20, _⟩ => ⟨S7, .i32⟩
  | .hbm, ⟨21, _⟩ => ⟨S7, .i32⟩
  | .hbm, ⟨22, _⟩ => ⟨S112, .i32⟩
  | .hbm, ⟨23, _⟩ => ⟨S112x1, .i32⟩
  | .hbm, ⟨24, _⟩ => ⟨S_, .i32⟩
  | .hbm, ⟨25, _⟩ => ⟨S112x1, .i32⟩
  | .hbm, ⟨26, _⟩ => ⟨S112x1, .i32⟩
  | .hbm, ⟨27, _⟩ => ⟨S1x7, .i32⟩
  | .hbm, ⟨28, _⟩ => ⟨S112x7, .i32⟩
  | .hbm, ⟨29, _⟩ => ⟨S112x7, .i32⟩
  | .hbm, ⟨30, _⟩ => ⟨S112x7, .i32⟩
  | .hbm, ⟨31, _⟩ => ⟨S112, .i32⟩
  | .hbm, ⟨32, _⟩ => ⟨S112x1, .i32⟩
  | .hbm, ⟨33, _⟩ => ⟨S_, .i32⟩
  | .hbm, ⟨34, _⟩ => ⟨S112x1, .i32⟩
  | .hbm, ⟨35, _⟩ => ⟨S112x1, .i32⟩
  | .hbm, ⟨36, _⟩ => ⟨S1x7, .i32⟩
  | .hbm, ⟨37, _⟩ => ⟨S112x7, .i32⟩
  | .hbm, ⟨38, _⟩ => ⟨S112x7, .i32⟩
  | .hbm, ⟨39, _⟩ => ⟨S112x7, .i32⟩
  | .hbm, ⟨40, _⟩ => ⟨S112x7x1x1, .i32⟩
  | .hbm, ⟨41, _⟩ => ⟨S1x1x112x7, .i32⟩
  | .hbm, ⟨42, _⟩ => ⟨S_, .i32⟩
  | .hbm, ⟨43, _⟩ => ⟨S112x7x1x1, .i32⟩
  | .hbm, ⟨44, _⟩ => ⟨S112x7x1x1, .i1⟩
  | .hbm, ⟨45, _⟩ => ⟨S_, .i32⟩
  | .hbm, ⟨46, _⟩ => ⟨S112x7x1x1, .i32⟩
  | .hbm, ⟨47, _⟩ => ⟨S112x7x1x1, .i32⟩
  | .hbm, ⟨48, _⟩ => ⟨S112x7x1x1, .i32⟩
  | .hbm, ⟨49, _⟩ => ⟨S_, .i32⟩
  | .hbm, ⟨50, _⟩ => ⟨S1x1x112x7, .i32⟩
  | .hbm, ⟨51, _⟩ => ⟨S1x1x112x7, .i1⟩
  | .hbm, ⟨52, _⟩ => ⟨S_, .i32⟩
  | .hbm, ⟨53, _⟩ => ⟨S1x1x112x7, .i32⟩
  | .hbm, ⟨54, _⟩ => ⟨S1x1x112x7, .i32⟩
  | .hbm, ⟨55, _⟩ => ⟨S1x1x112x7, .i32⟩
  | .hbm, ⟨56, _⟩ => ⟨S112x7x112x7, .i32⟩
  | .hbm, ⟨57, _⟩ => ⟨S112x7x112x7, .i32⟩
  | .hbm, ⟨58, _⟩ => ⟨S112x7x112x7x1, .i32⟩
  | .hbm, ⟨59, _⟩ => ⟨S112x7x112x7x1, .i32⟩
  | .hbm, ⟨60, _⟩ => ⟨S112x7x112x7x2, .i32⟩
  | .hbm, ⟨61, _⟩ => ⟨S4x64x112x7x112x7, .f32⟩
  | .hbm, ⟨62, _⟩ => ⟨S4x64x7x7x112x112, .f32⟩
  | .hbm, ⟨63, _⟩ => ⟨S4x64x49x12544, .f32⟩
  | .hbm, ⟨64, _⟩ => ⟨S4x64x1x12544, .f32⟩
  | .hbm, ⟨65, _⟩ => ⟨S4x64x49x12544, .f32⟩
  | .hbm, ⟨66, _⟩ => ⟨S4x64x49x12544, .f32⟩
  | _, _ => ⟨S4x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]

class Facts₀ : Prop where
  slices_S4x64x112x112_S4x64x1x112_0_0_0_0 : S4x64x112x112.Slices ![0, 0, 0, 0] S4x64x1x112
  slices_S4x64x112x112_S4x64x3x112_0_0_1_0 : S4x64x112x112.Slices ![0, 0, 1, 0] S4x64x3x112
  concatenates_S4x64x3x112_S4x64x112x112_S4x64x115x112_d2 : Shape.Concatenates [S4x64x3x112, S4x64x112x112] S4x64x115x112 2
  slices_S4x64x115x112_S4x64x1x112_0_0_114_0 : S4x64x115x112.Slices ![0, 0, 114, 0] S4x64x1x112
  slices_S4x64x115x112_S4x64x3x112_0_0_111_0 : S4x64x115x112.Slices ![0, 0, 111, 0] S4x64x3x112
  concatenates_S4x64x115x112_S4x64x3x112_S4x64x118x112_d2 : Shape.Concatenates [S4x64x115x112, S4x64x3x112] S4x64x118x112 2
  slices_S4x64x118x112_S4x64x118x1_0_0_0_0 : S4x64x118x112.Slices ![0, 0, 0, 0] S4x64x118x1
  slices_S4x64x118x112_S4x64x118x3_0_0_0_1 : S4x64x118x112.Slices ![0, 0, 0, 1] S4x64x118x3
  concatenates_S4x64x118x3_S4x64x118x112_S4x64x118x115_d3 : Shape.Concatenates [S4x64x118x3, S4x64x118x112] S4x64x118x115 3
  slices_S4x64x118x115_S4x64x118x1_0_0_0_114 : S4x64x118x115.Slices ![0, 0, 0, 114] S4x64x118x1
  slices_S4x64x118x115_S4x64x118x3_0_0_0_111 : S4x64x118x115.Slices ![0, 0, 0, 111] S4x64x118x3
  concatenates_S4x64x118x115_S4x64x118x3_S4x64x118x118_d3 : Shape.Concatenates [S4x64x118x115, S4x64x118x3] S4x64x118x118 3
  bcast_S_S7 : S_.BroadcastsInDim S7 (![] : Fin 0 → Fin S7.rank)
  bcast_S112_S112x1_0 : S112.BroadcastsInDim S112x1 (![0] : Fin 1 → Fin S112x1.rank)
  bcast_S_S112x1 : S_.BroadcastsInDim S112x1 (![] : Fin 0 → Fin S112x1.rank)
  bcast_S7_S1x7_1 : S7.BroadcastsInDim S1x7 (![1] : Fin 1 → Fin S1x7.rank)
  bcast_S112x1_S112x7_0_1 : S112x1.BroadcastsInDim S112x7 (![0, 1] : Fin 2 → Fin S112x7.rank)
  bcast_S1x7_S112x7_0_1 : S1x7.BroadcastsInDim S112x7 (![0, 1] : Fin 2 → Fin S112x7.rank)
  bcast_S112x7_S112x7x1x1_0_1 : S112x7.BroadcastsInDim S112x7x1x1 (![0, 1] : Fin 2 → Fin S112x7x1x1.rank)
  bcast_S112x7_S1x1x112x7_2_3 : S112x7.BroadcastsInDim S1x1x112x7 (![2, 3] : Fin 2 → Fin S1x1x112x7.rank)
  bcast_S_S112x7x1x1 : S_.BroadcastsInDim S112x7x1x1 (![] : Fin 0 → Fin S112x7x1x1.rank)
  bcast_S_S1x1x112x7 : S_.BroadcastsInDim S1x1x112x7 (![] : Fin 0 → Fin S1x1x112x7.rank)
  bcast_S112x7x1x1_S112x7x112x7_0_1_2_3 : S112x7x1x1.BroadcastsInDim S112x7x112x7 (![0, 1, 2, 3] : Fin 4 → Fin S112x7x112x7.rank)
  bcast_S1x1x112x7_S112x7x112x7_0_1_2_3 : S1x1x112x7.BroadcastsInDim S112x7x112x7 (![0, 1, 2, 3] : Fin 4 → Fin S112x7x112x7.rank)
  bcast_S112x7x112x7_S112x7x112x7x1_0_1_2_3 : S112x7x112x7.BroadcastsInDim S112x7x112x7x1 (![0, 1, 2, 3] : Fin 4 → Fin S112x7x112x7x1.rank)
  concatenates_S112x7x112x7x1_S112x7x112x7x1_S112x7x112x7x2_d4 : Shape.Concatenates [S112x7x112x7x1, S112x7x112x7x1] S112x7x112x7x2 4
  transposes_S4x64x112x7x112x7_S4x64x7x7x112x112_0_1_3_5_2_4 : S4x64x112x7x112x7.Transposes [0, 1, 3, 5, 2, 4] S4x64x7x7x112x112
  shapeCasts_S4x64x7x7x112x112_S4x64x49x12544 : S4x64x7x7x112x112.ShapeCasts S4x64x49x12544
  shapeCasts_S4x64x112x112_S4x64x1x12544 : S4x64x112x112.ShapeCasts S4x64x1x12544
  bcast_S4x64x1x12544_S4x64x49x12544_0_1_2_3 : S4x64x1x12544.BroadcastsInDim S4x64x49x12544 (![0, 1, 2, 3] : Fin 4 → Fin S4x64x49x12544.rank)
  gather_S4x64x118x118_S112x7x112x7x2_S4x64x112x7x112x7_01_23_n_n_23_4_46411_wf : GatherDims.WF S4x64x118x118 S112x7x112x7x2 S4x64x112x7x112x7 [0, 1] [2, 3] [] [2, 3] [] 4 ![4, 64, 1, 1]

variable [Facts₀]

def gather_S4x64x118x118_S112x7x112x7x2_S4x64x112x7x112x7_01_23_n_n_23_4_46411 : GatherDims S4x64x118x118 S112x7x112x7x2 S4x64x112x7x112x7 where
  offsetDims := [0, 1]
  collapsedSliceDims := [2, 3]
  operandBatchingDims := []
  startIndicesBatchingDims := []
  startIndexMap := [2, 3]
  indexVectorDim := 4
  sliceSizes := ![4, 64, 1, 1]
  wf := gather_S4x64x118x118_S112x7x112x7x2_S4x64x112x7x112x7_01_23_n_n_23_4_46411_wf

class Facts : Prop extends Facts₀ where

variable [Facts]
-- ==== Proof.KerTerm.lean ====
/-
  The kernel program's host operations before its one region as a pure function of the argument array: the
  256 planes `(n, c) ↦ 64·n + c` laid out on one axis, then reflect-padded by three on each side of the two image axes.
  One `let` per operation of the printed program, in its order; nothing is proved here.
-/
import proofs.«121657_j40475771798075_1_alg».proof.KernelIdeal

noncomputable section

namespace Cert.KernelIdeal.Term

open Idealize.ShloMosaic Cert.KernelIdeal

variable {F : FTy → Type} [FloatOps F] [Facts]
open Facts₀ Facts

/-- The padded planes the region reads: the argument's first two axes flattened, three rows next to each edge reversed
    and joined below and above, then the same along the columns of the row-padded array. -/
def kpad (x : FVec F S4x64x112x112 .f32) : FVec F S256x118x118 .f32 :=
  let v0 : FVec F S256x112x112 .f32 := shapeCast S256x112x112 x shapeCasts_S4x64x112x112_S256x112x112
  let v1 : FVec F S256x3x112 .f32 := extractStridedSlice S256x3x112 ![0, 1, 0] v0 slices_S256x112x112_S256x3x112_0_1_0
  let v2 : FVec F S256x3x112 .f32 := Host.reverse [1] v1
  let v3 : FVec F S256x115x112 .f32 := concatenate S256x115x112 1 [⟨S256x3x112, v2⟩, ⟨S256x112x112, v0⟩] concatenates_S256x3x112_S256x112x112_S256x115x112_d1
  let v5 : FVec F S256x3x112 .f32 := extractStridedSlice S256x3x112 ![0, 111, 0] v3 slices_S256x115x112_S256x3x112_0_111_0
  let v6 : FVec F S256x3x112 .f32 := Host.reverse [1] v5
  let v7 : FVec F S256x118x112 .f32 := concatenate S256x118x112 1 [⟨S256x115x112, v3⟩, ⟨S256x3x112, v6⟩] concatenates_S256x115x112_S256x3x112_S256x118x112_d1
  let v9 : FVec F S256x118x3 .f32 := extractStridedSlice S256x118x3 ![0, 0, 1] v7 slices_S256x118x112_S256x118x3_0_0_1
  let v10 : FVec F S256x118x3 .f32 := Host.reverse [2] v9
  let v11 : FVec F S256x118x115 .f32 := concatenate S256x118x115 2 [⟨S256x118x3, v10⟩, ⟨S256x118x112, v7⟩] concatenates_S256x118x3_S256x118x112_S256x118x115_d2
  let v13 : FVec F S256x118x3 .f32 := extractStridedSlice S256x118x3 ![0, 0, 111] v11 slices_S256x118x115_S256x118x3_0_0_111
  let v14 : FVec F S256x118x3 .f32 := Host.reverse [2] v13
  concatenate S256x118x118 2 [⟨S256x118x115, v11⟩, ⟨S256x118x3, v14⟩] concatenates_S256x118x115_S256x118x3_S256x118x118_d2

end Cert.KernelIdeal.Term

end
-- ==== Proof.Spec.lean ====
/-
  The mathematics of the statement, with no program in sight.

  The operator takes x : f32[4, 64, 112, 112], pads its two image axes by three positions on each side by
  REFLECTION (position r of the padded axis, 0 ≤ r < 118, reads source position 3 - r below the image, r - 3 inside
  it and 225 - r above it: the mirror image about the first and the last source position, the edge itself not
  repeated), and returns, for every image position (i, j) and every offset (a, b) of a 7 × 7 window,
      x[n, c, i, j] - xpad[n, c, i + a, j + b],
  the centre of the window minus its (a, b) neighbour, laid out as out[n, c, 7·a + b, 112·i + j].
  Both programs compute exactly this; no law of the extended reals is used, only which entries are subtracted.
-/
import Idealize.ShloMosaic.Lib.ValueIdx
import Idealize.ShloMosaic.PureOps.Ideal

noncomputable section

namespace Cert.Unfold

open Idealize.ShloMosaic Idealize.ShloMosaic.ValueIdx

/-- The source position that position `r` of a length-112 axis reflect-padded by three on each side reads. -/
def refl (r : ℕ) : ℕ := if r < 3 then 3 - r else if r < 115 then r - 3 else 225 - r

/-- It is a source position. -/
theorem refl_lt {r : ℕ} (h : r < 118) : refl r < 112 := by
  unfold refl; split_ifs <;> omega

/-- Inside the image the padded axis is the source axis shifted by three. -/
theorem refl_add_three {i : ℕ} (h : i < 112) : refl (3 + i) = i := by
  unfold refl; split_ifs <;> omega

/-- The operand's shape and the result's. -/
abbrev SX : Shape := ⟨4, ![4, 64, 112, 112]⟩
abbrev SO : Shape := ⟨4, ![4, 64, 49, 12544]⟩

theorem row_lt (p : Fin 12544) : p.val / 112 < 112 := by have := p.isLt; omega
theorem col_lt (p : Fin 12544) : p.val % 112 < 112 := Nat.mod_lt _ (by decide)
theorem nrow_lt (kk : Fin 49) (p : Fin 12544) : p.val / 112 + kk.val / 7 < 118 := by
  have := p.isLt; have := kk.isLt; omega
theorem ncol_lt (kk : Fin 49) (p : Fin 12544) : p.val % 112 + kk.val % 7 < 118 := by
  have := Nat.mod_lt p.val (show 0 < 112 by decide); have := Nat.mod_lt kk.val (show 0 < 7 by decide); omega

/-- The result at explicit coordinates: plane `(n, c)`, window offset `kk = 7·a + b`, image position `p = 112·i + j`:
    the centre `x[n, c, i, j]` minus the neighbour `xpad[n, c, i + a, j + b]`. -/
def Gc (x : SX.Idx → EReal) (n : Fin 4) (c : Fin 64) (kk : Fin 49) (p : Fin 12544) : EReal :=
  x (ix4 n c ⟨p.val / 112, row_lt p⟩ ⟨p.val % 112, col_lt p⟩)
    - x (ix4 n c ⟨refl (p.val / 112 + kk.val / 7), refl_lt (nrow_lt kk p)⟩
                 ⟨refl (p.val % 112 + kk.val % 7), refl_lt (ncol_lt kk p)⟩)

/-- The whole result array. -/
def G (x : SX.Idx → EReal) : SO.Idx → EReal := fun y => Gc x (y 0) (y 1) (y 2) (y 3)

theorem G_apply (x : SX.Idx → EReal) (n : Fin 4) (c : Fin 64) (kk : Fin 49) (p : Fin 12544) :
    G x (ix4 n c kk p) = Gc x n c kk p := rfl

end Cert.Unfold

end
-- ==== Proof.KerPad.lean ====
/-
  The kernel program's padded planes. The argument's planes (n, c) are laid out on one axis as plane 64·n + c; three rows
  next to each edge of a plane are reversed and joined above and below it, then three columns next to each edge of the
  row-padded plane are reversed and joined before and after it. Read at plane b, row r, column s of the 118 × 118 result,
  this is the argument at plane (b / 64, b % 64), row refl r, column refl s: each join reads either the array it extends
  (shifted by three when joined after the new rows) or the mirror image of three of its rows, and the two joins along one
  axis compose to the reflection about the first and the last source position.
-/
import proofs.«121657_j40475771798075_1_alg».proof.Proof.Gen.KernelIdeal.Frame
import proofs.«121657_j40475771798075_1_alg».proof.Proof.KerTerm
import proofs.«121657_j40475771798075_1_alg».proof.Proof.Spec
import Idealize.ShloMosaic.Lib.ValueIdx
import Idealize.ShloMosaic.Lib.Pipeline.Value
import Idealize.ShloMosaic.Lib.StableHlo.Run

noncomputable section

namespace Cert.KernelIdeal.KerPad

open Cert.KernelIdeal Cert.KernelIdeal.Gen Idealize.ShloMosaic Idealize.ShloMosaic.TcCoe Idealize.ShloMosaic.ValueIdx Idealize.SL.Sem Cert.Unfold

variable {F : FTy → Type} [FloatOps F]

theorem plane_div_lt (b : Fin 256) : b.val / 64 < 4 := by have := b.isLt; omega
theorem plane_mod_lt (b : Fin 256) : b.val % 64 < 64 := Nat.mod_lt _ (by decide)

section Pure
variable {α : Type}

/-- Reversal along axis 1 of a rank-3 array: row `r` reads row `n1 - 1 - r`, plane and column kept. -/
theorem reverse_rows_apply {n0 n1 n2 : Nat} (v : (⟨3, ![n0, n1, n2]⟩ : Shape).Idx → α) (b : Fin n0) (r : Fin n1) (t : Fin n2) :
    Host.reverse (s := ⟨3, ![n0, n1, n2]⟩) [1] v (ix3 b r t) = v (ix3 b r.rev t) := by
  unfold Host.reverse
  congr 1
  funext a
  match a with
  | ⟨0, _⟩ => exact if_neg (by simp)
  | ⟨1, _⟩ => exact if_pos (List.mem_singleton.mpr (Fin.ext rfl))
  | ⟨2, _⟩ => exact if_neg (by simp)

/-- Reversal along axis 2 of a rank-3 array: column `t` reads column `n2 - 1 - t`, plane and row kept. -/
theorem reverse_cols_apply {n0 n1 n2 : Nat} (v : (⟨3, ![n0, n1, n2]⟩ : Shape).Idx → α) (b : Fin n0) (r : Fin n1) (t : Fin n2) :
    Host.reverse (s := ⟨3, ![n0, n1, n2]⟩) [2] v (ix3 b r t) = v (ix3 b r t.rev) := by
  unfold Host.reverse
  congr 1
  funext a
  match a with
  | ⟨0, _⟩ => exact if_neg (by simp)
  | ⟨1, _⟩ => exact if_neg (by simp)
  | ⟨2, _⟩ => exact if_pos (List.mem_singleton.mpr (Fin.ext rfl))

/-- Rows 1, 2, 3 of each plane reversed and joined above it. -/
def rowsAbove (v0 : S256x112x112.Idx → α) : S256x115x112.Idx → α :=
  concatenate S256x115x112 1
    [⟨S256x3x112, Host.reverse [1] (extractStridedSlice S256x3x112 ![0, 1, 0] v0 slices_S256x112x112_S256x3x112_0_1_0)⟩,
     ⟨S256x112x112, v0⟩] concatenates_S256x3x112_S256x112x112_S256x115x112_d1

/-- Rows 111, 112, 113 of each plane reversed and joined below it. -/
def rowsBelow (v3 : S256x115x112.Idx → α) : S256x118x112.Idx → α :=
  concatenate S256x118x112 1
    [⟨S256x115x112, v3⟩,
     ⟨S256x3x112, Host.reverse [1] (extractStridedSlice S256x3x112 ![0, 111, 0] v3 slices_S256x115x112_S256x3x112_0_111_0)⟩]
    concatenates_S256x115x112_S256x3x112_S256x118x112_d1

/-- Columns 1, 2, 3 of each plane reversed and joined before it. -/
def colsLeft (v7 : S256x118x112.Idx → α) : S256x118x115.Idx → α :=
  concatenate S256x118x115 2
    [⟨S256x118x3, Host.reverse [2] (extractStridedSlice S256x118x3 ![0, 0, 1] v7 slices_S256x118x112_S256x118x3_0_0_1)⟩,
     ⟨S256x118x112, v7⟩] concatenates_S256x118x3_S256x118x112_S256x118x115_d2

/-- Columns 111, 112, 113 of each plane reversed and joined after it. -/
def colsRight (v11 : S256x118x115.Idx → α) : S256x118x118.Idx → α :=
  concatenate S256x118x118 2
    [⟨S256x118x115, v11⟩,
     ⟨S256x118x3, Host.reverse [2] (extractStridedSlice S256x118x3 ![0, 0, 111] v11 slices_S256x118x115_S256x118x3_0_0_111)⟩]
    concatenates_S256x118x115_S256x118x3_S256x118x118_d2

/-- Where row `r` of the 115 reads: rows 0, 1, 2 read rows 3, 2, 1; row `r ≥ 3` reads row `r - 3`. -/
def above (r : ℕ) : ℕ := if r < 3 then 3 - r else r - 3
/-- Where row `r` of the 118 reads among the 115: itself below 115; rows 115, 116, 117 read rows 113, 112, 111. -/
def below (r : ℕ) : ℕ := if r < 115 then r else 228 - r

theorem above_lt {r : ℕ} (h : r < 115) : above r < 112 := by unfold above; split_ifs <;> omega
theorem below_lt {r : ℕ} (h : r < 118) : below r < 115 := by unfold below; split_ifs <;> omega
/-- The two steps composed are the reflection. -/
theorem above_below {r : ℕ} (h : r < 118) : above (below r) = Unfold.refl r := by
  unfold above below Unfold.refl; split_ifs <;> omega

theorem rowsAbove_apply (v0 : S256x112x112.Idx → α) (b : Fin 256) (r : Fin 115) (t : Fin 112) :
    rowsAbove v0 (ix3 b r t) = v0 (ix3 b ⟨above r.val, above_lt r.isLt⟩ t) := by
  unfold rowsAbove
  by_cases h : r.val < 3
  · have e : (⟨above r.val, above_lt r.isLt⟩ : Fin 112) = ⟨3 - r.val, by omega⟩ := Fin.ext (if_pos h)
    rw [e]
    refine (concatenate_pair_apply_left (t := S256x115x112) (s₁ := S256x3x112) (s₂ := S256x112x112) (1 : Fin 3) _ _ _ _ rfl
      (ix3 b (⟨r.val, h⟩ : Fin 3) t) (by
        intro a
        match a with
        | ⟨0, _⟩ => rfl
        | ⟨1, _⟩ => rfl
        | ⟨2, _⟩ => rfl)).trans ?_
    rw [reverse_rows_apply]
    exact extractStridedSlice_apply _ _ _ _ _ (by
      intro a
      match a with
      | ⟨0, _⟩ => show b.val = 0 + b.val; omega
      | ⟨1, _⟩ => show 3 - r.val = 1 + (3 - (r.val + 1)); omega
      | ⟨2, _⟩ => show t.val = 0 + t.val; omega)
  · have e : (⟨above r.val, above_lt r.isLt⟩ : Fin 112) = ⟨r.val - 3, by have := r.isLt; omega⟩ := Fin.ext (if_neg h)
    rw [e]
    exact concatenate_pair_apply_right (t := S256x115x112) (s₁ := S256x3x112) (s₂ := S256x112x112) (1 : Fin 3) _ _ _ _ rfl rfl _
      (by
        intro a ha
        match a with
        | ⟨0, _⟩ => rfl
        | ⟨1, _⟩ => exact absurd rfl ha
        | ⟨2, _⟩ => rfl)
      (by show r.val - 3 + 3 = r.val; omega)

theorem rowsBelow_apply (v3 : S256x115x112.Idx → α) (b : Fin 256) (r : Fin 118) (t : Fin 112) :
    rowsBelow v3 (ix3 b r t) = v3 (ix3 b ⟨below r.val, below_lt r.isLt⟩ t) := by
  unfold rowsBelow
  by_cases h : r.val < 115
  · have e : (⟨below r.val, below_lt r.isLt⟩ : Fin 115) = ⟨r.val, h⟩ := Fin.ext (if_pos h)
    rw [e]
    exact concatenate_pair_apply_left (t := S256x118x112) (s₁ := S256x115x112) (s₂ := S256x3x112) (1 : Fin 3) _ _ _ _ rfl
      (ix3 b (⟨r.val, h⟩ : Fin 115) t) (by
        intro a
        match a with
        | ⟨0, _⟩ => rfl
        | ⟨1, _⟩ => rfl
        | ⟨2, _⟩ => rfl)
  · have e : (⟨below r.val, below_lt r.isLt⟩ : Fin 115) = ⟨228 - r.val, by have := r.isLt; omega⟩ := Fin.ext (if_neg h)
    rw [e]
    refine (concatenate_pair_apply_right (t := S256x118x112) (s₁ := S256x115x112) (s₂ := S256x3x112) (1 : Fin 3) _ _ _ _ rfl rfl
      (ix3 b (⟨r.val - 115, by have := r.isLt; omega⟩ : Fin 3) t)
      (by
        intro a ha
        match a with
        | ⟨0, _⟩ => rfl
        | ⟨1, _⟩ => exact absurd rfl ha
        | ⟨2, _⟩ => rfl)
      (by show r.val - 115 + 115 = r.val; omega)).trans ?_
    rw [reverse_rows_apply]
    exact extractStridedSlice_apply _ _ _ _ _ (by
      intro a
      match a with
      | ⟨0, _⟩ => show b.val = 0 + b.val; omega
      | ⟨1, _⟩ => show 228 - r.val = 111 + (3 - (r.val - 115 + 1)); have := r.isLt; omega
      | ⟨2, _⟩ => show t.val = 0 + t.val; omega)

theorem colsLeft_apply (v7 : S256x118x112.Idx → α) (b : Fin 256) (r : Fin 118) (s : Fin 115) :
    colsLeft v7 (ix3 b r s) = v7 (ix3 b r ⟨above s.val, above_lt s.isLt⟩) := by
  unfold colsLeft
  by_cases h : s.val < 3
  · have e : (⟨above s.val, above_lt s.isLt⟩ : Fin 112) = ⟨3 - s.val, by omega⟩ := Fin.ext (if_pos h)
    rw [e]
    refine (concatenate_pair_apply_left (t := S256x118x115) (s₁ := S256x118x3) (s₂ := S256x118x112) (2 : Fin 3) _ _ _ _ rfl
      (ix3 b r (⟨s.val, h⟩ : Fin 3)) (by
        intro a
        match a with
        | ⟨0, _⟩ => rfl
        | ⟨1, _⟩ => rfl
        | ⟨2, _⟩ => rfl)).trans ?_
    rw [reverse_cols_apply]
    exact extractStridedSlice_apply _ _ _ _ _ (by
      intro a
      match a with
      | ⟨0, _⟩ => show b.val = 0 + b.val; omega
      | ⟨1, _⟩ => show r.val = 0 + r.val; omega
      | ⟨2, _⟩ => show 3 - s.val = 1 + (3 - (s.val + 1)); omega)
  · have e : (⟨above s.val, above_lt s.isLt⟩ : Fin 112) = ⟨s.val - 3, by have := s.isLt; omega⟩ := Fin.ext (if_neg h)
    rw [e]
    exact concatenate_pair_apply_right (t := S256x118x115) (s₁ := S256x118x3) (s₂ := S256x118x112) (2 : Fin 3) _ _ _ _ rfl rfl _
      (by
        intro a ha
        match a with
        | ⟨0, _⟩ => rfl
        | ⟨1, _⟩ => rfl
        | ⟨2, _⟩ => exact absurd rfl ha)
      (by show s.val - 3 + 3 = s.val; omega)

theorem colsRight_apply (v11 : S256x118x115.Idx → α) (b : Fin 256) (r : Fin 118) (s : Fin 118) :
    colsRight v11 (ix3 b r s) = v11 (ix3 b r ⟨below s.val, below_lt s.isLt⟩) := by
  unfold colsRight
  by_cases h : s.val < 115
  · have e : (⟨below s.val, below_lt s.isLt⟩ : Fin 115) = ⟨s.val, h⟩ := Fin.ext (if_pos h)
    rw [e]
    exact concatenate_pair_apply_left (t := S256x118x118) (s₁ := S256x118x115) (s₂ := S256x118x3) (2 : Fin 3) _ _ _ _ rfl
      (ix3 b r (⟨s.val, h⟩ : Fin 115)) (by
        intro a
        match a with
        | ⟨0, _⟩ => rfl
        | ⟨1, _⟩ => rfl
        | ⟨2, _⟩ => rfl)
  · have e : (⟨below s.val, below_lt s.isLt⟩ : Fin 115) = ⟨228 - s.val, by have := s.isLt; omega⟩ := Fin.ext (if_neg h)
    rw [e]
    refine (concatenate_pair_apply_right (t := S256x118x118) (s₁ := S256x118x115) (s₂ := S256x118x3) (2 : Fin 3) _ _ _ _ rfl rfl
      (ix3 b r (⟨s.val - 115, by have := s.isLt; omega⟩ : Fin 3))
      (by
        intro a ha
        match a with
        | ⟨0, _⟩ => rfl
        | ⟨1, _⟩ => rfl
        | ⟨2, _⟩ => exact absurd rfl ha)
      (by show s.val - 115 + 115 = s.val; omega)).trans ?_
    rw [reverse_cols_apply]
    exact extractStridedSlice_apply _ _ _ _ _ (by
      intro a
      match a with
      | ⟨0, _⟩ => show b.val = 0 + b.val; omega
      | ⟨1, _⟩ => show r.val = 0 + r.val; omega
      | ⟨2, _⟩ => show 228 - s.val = 111 + (3 - (s.val - 115 + 1)); have := s.isLt; omega)

end Pure

/-- The padded planes are the four joins applied in turn to the 256 planes. -/
theorem kpad_eq (x : FVec F S4x64x112x112 .f32) :
    Term.kpad x = colsRight (colsLeft (rowsBelow (rowsAbove (shapeCast S256x112x112 x shapeCasts_S4x64x112x112_S256x112x112)))) := rfl

theorem kpad_apply (x : FVec F S4x64x112x112 .f32) (b : Fin 256) (r s : Fin 118) :
    Term.kpad x (ix3 b r s)
      = x (ix4 ⟨b.val / 64, plane_div_lt b⟩ ⟨b.val % 64, plane_mod_lt b⟩ ⟨refl r.val, refl_lt r.isLt⟩ ⟨refl s.val, refl_lt s.isLt⟩) := by
  rw [kpad_eq, colsRight_apply, colsLeft_apply, rowsBelow_apply, rowsAbove_apply]
  have er : (⟨above (below r.val), above_lt (below_lt r.isLt)⟩ : Fin 112) = ⟨Unfold.refl r.val, refl_lt r.isLt⟩ := Fin.ext (above_below r.isLt)
  have es : (⟨above (below s.val), above_lt (below_lt s.isLt)⟩ : Fin 112) = ⟨Unfold.refl s.val, refl_lt s.isLt⟩ := Fin.ext (above_below s.isLt)
  rw [er, es]
  exact shapeCast_apply _ _ _ _ (by
    rw [Shape.rowMajor_val_four, Shape.rowMajor_val_three]
    show ((b.val / 64 * 64 + b.val % 64) * 112 + Unfold.refl r.val) * 112 + Unfold.refl s.val = (b.val * 112 + Unfold.refl r.val) * 112 + Unfold.refl s.val
    omega)

theorem V_main_v1 (m : (ℓ : Loc nD τ sig) → Buf (Elt F) ℓ) (c : Dev nD) :
    (V m c main_v1 : FVec F S256x118x118 .f32) = Term.kpad (m ((c : Thread nD τ).loc main_arg0)) := by
  dsimp only [Gen.V, Gen.V0]
  simp only [Gen.hostOps0, Gen.hostOps0_1, List.flatten_cons, List.flatten_nil, List.append_nil, List.cons_append, List.nil_append]
  after_results
  simp only [StableHlo.TRef.ofBuf, StableHlo.TRef.toBuf, cast_eq]
  rfl

end Cert.KernelIdeal.KerPad

end
-- ==== Proof.KerBody.lean ====
/-
  The kernel body's output block read at an index. Each of its 49 stores writes, through the rectangle at offset
  k = 7·a + b of the window-offset axis, the centre rectangle (rows and columns 3 … 114 of the padded input block) minus
  the neighbour rectangle at row offset a and column offset b; the 49 rectangles tile the block, so the block at
  (p, k, i, j) is x0[p, 3 + i, 3 + j] - x0[p, k / 7 + i, k % 7 + j].
-/
import proofs.«121657_j40475771798075_1_alg».proof.Proof.Gen.KernelIdeal.Frame
import Idealize.ShloMosaic.Lib.ValueIdx
import Idealize.ShloMosaic.Lib.Pipeline.Value
import Idealize.ShloMosaic.PureOps.Ideal

noncomputable section

namespace Cert.KernelIdeal.KerBody

open Cert.KernelIdeal Cert.KernelIdeal.Gen Idealize.ShloMosaic Idealize.ShloMosaic.ValueIdx

theorem ctr_lt (i : Fin 112) : 3 + i.val < 118 := by have := i.isLt; omega
theorem nbr_row_lt (kk : Fin 49) (i : Fin 112) : kk.val / 7 + i.val < 118 := by have := i.isLt; have := kk.isLt; omega
theorem nbr_col_lt (kk : Fin 49) (j : Fin 112) : kk.val % 7 + j.val < 118 := by
  have := j.isLt; have := Nat.mod_lt kk.val (show 0 < 7 by decide); omega

/-- The output block at explicit coordinates: plane `b`, window offset `kk = 7·a + b'`, image position `(i, j)`: the centre
    `x0[b, 3 + i, 3 + j]` minus the neighbour `x0[b, a + i, b' + j]`. -/
def Gc (x0 : FVec Ideal S8x118x118 .f32) (b : Fin 8) (kk : Fin 49) (i j : Fin 112) : EReal :=
  (x0 (ix3 b ⟨3 + i.val, ctr_lt i⟩ ⟨3 + j.val, ctr_lt j⟩) : EReal)
    - (x0 (ix3 b ⟨kk.val / 7 + i.val, nbr_row_lt kk i⟩ ⟨kk.val % 7 + j.val, nbr_col_lt kk j⟩) : EReal)

/-- The whole output block as one function of its index. -/
def G (x0 : FVec Ideal S8x118x118 .f32) : Vec Ideal S8x49x112x112 .f32 := fun y => Gc x0 (y 0) (y 1) (y 2) (y 3)

/-- What one store writes: a centre block minus a neighbour block, elementwise, with a unit axis put after the plane axis. -/
def pay (c n : Vec Ideal S8x112x112 .f32) : FVec Ideal S8x1x112x112 .f32 :=
  shapeCast S8x1x112x112
    (subf (shapeCast S8x112x112 c shapeCasts_S8x112x112_S8x112x112) (shapeCast S8x112x112 n shapeCasts_S8x112x112_S8x112x112))
    shapeCasts_S8x112x112_S8x1x112x112

/-- A store's value at `(p, 0, i, j)` is the centre block at `(p, i, j)` minus the neighbour block there. -/
theorem pay_apply (c n : Vec Ideal S8x112x112 .f32) (p : Fin 8) (u : Fin 1) (i j : Fin 112) :
    (pay c n (ix4 p u i j) : EReal) = (c (ix3 p i j) : EReal) - (n (ix3 p i j) : EReal) := by
  unfold pay
  rw [shapeCast_self, shapeCast_self]
  refine (shapeCast_apply _ _ (ix4 p u i j) (ix3 p i j) ?_).trans (subf_apply _ _ _)
  rw [Shape.rowMajor_val_three, Shape.rowMajor_val_four]
  have hu : u.val = 0 := by omega
  show (p.val * 112 + i.val) * 112 + j.val = ((p.val * 1 + u.val) * 112 + i.val) * 112 + j.val
  omega

/-- The centre rectangle at a position: rows and columns shifted by three. -/
theorem ctr_idx (p : Fin 8) (i j : Fin 112) :
    r0_0.idx (ix3 p i j) = ix3 p ⟨3 + i.val, ctr_lt i⟩ ⟨3 + j.val, ctr_lt j⟩ := by
  funext ax
  match ax with
  | ⟨0, _⟩ => exact Fin.ext (by show 0 + 1 * p.val = p.val; omega)
  | ⟨1, _⟩ => exact Fin.ext (by show 3 + 1 * i.val = 3 + i.val; omega)
  | ⟨2, _⟩ => exact Fin.ext (by show 3 + 1 * j.val = 3 + j.val; omega)

/-- A neighbour rectangle at a position: rows shifted by its row offset, columns by its column offset. -/
theorem nbr_idx (a b : ℕ) (inbL : ∀ ax, (![0, a, b] : Fin 3 → Nat) ax + S8x112x112.size ax ≤ S8x118x118.size ax)
    (p : Fin 8) (i j : Fin 112) (hi : a + i.val < 118) (hj : b + j.val < 118) :
    (Rect.unit (s := S8x118x118) ![0, a, b] S8x112x112.size inbL).idx (ix3 p i j) = ix3 p ⟨a + i.val, hi⟩ ⟨b + j.val, hj⟩ := by
  funext ax
  match ax with
  | ⟨0, _⟩ => exact Fin.ext (by show 0 + 1 * p.val = p.val; omega)
  | ⟨1, _⟩ => exact Fin.ext (by show a + 1 * i.val = a + i.val; omega)
  | ⟨2, _⟩ => exact Fin.ext (by show b + 1 * j.val = b + j.val; omega)

/-- An output rectangle at a position: the window-offset axis at the rectangle's offset, the others as they are. -/
theorem out_idx (k : ℕ) (inbK : ∀ ax, (![0, k, 0, 0] : Fin 4 → Nat) ax + S8x1x112x112.size ax ≤ S8x49x112x112.size ax)
    (p : Fin 8) (u : Fin 1) (i j : Fin 112) (hk : k < 49) :
    (Rect.unit (s := S8x49x112x112) ![0, k, 0, 0] S8x1x112x112.size inbK).emb (ix4 p u i j) = ix4 p ⟨k, hk⟩ i j := by
  have hu : u.val = 0 := by omega
  funext ax
  match ax with
  | ⟨0, _⟩ => exact Fin.ext (by show 0 + 1 * p.val = p.val; omega)
  | ⟨1, _⟩ => exact Fin.ext (by show k + 1 * u.val = k; omega)
  | ⟨2, _⟩ => exact Fin.ext (by show 0 + 1 * i.val = i.val; omega)
  | ⟨3, _⟩ => exact Fin.ext (by show 0 + 1 * j.val = j.val; omega)

/-- Two indices of the padded block with equal row and column positions are equal. -/
theorem ix3_congr (p : Fin 8) {r r' c c' : ℕ} (hr : r < 118) (hr' : r' < 118) (hc : c < 118) (hc' : c' < 118)
    (e1 : r = r') (e2 : c = c') :
    (ix3 p (⟨r, hr⟩ : Fin 118) (⟨c, hc⟩ : Fin 118)) = ix3 p (⟨r', hr'⟩ : Fin 118) (⟨c', hc'⟩ : Fin 118) := by
  subst e1 e2; rfl

/-- The store of window offset `k = 7a + b`: centre minus the `(a, b)` neighbour, through the rectangle at offset `k` of the
    window-offset axis, is the block function under that rectangle. -/
theorem pay_restricts (x0 : FVec Ideal S8x118x118 .f32) (k a b : ℕ) (hk : k = 7 * a + b) (hb : b < 7)
    (inbK : ∀ ax, (![0, k, 0, 0] : Fin 4 → Nat) ax + S8x1x112x112.size ax ≤ S8x49x112x112.size ax)
    (inbL : ∀ ax, (![0, a, b] : Fin 3 → Nat) ax + S8x112x112.size ax ≤ S8x118x118.size ax)
    (x : S8x1x112x112.Idx) :
    pay (View.ld x0 r0_0) (View.ld x0 (Rect.unit (s := S8x118x118) ![0, a, b] S8x112x112.size inbL)) x
      = G x0 ((Rect.unit (s := S8x49x112x112) ![0, k, 0, 0] S8x1x112x112.size inbK).emb x) := by
  obtain ⟨p, u, i, j, rfl⟩ : ∃ (p : Fin 8) (u : Fin 1) (i j : Fin 112), x = ix4 p u i j := ⟨x 0, x 1, x 2, x 3, eq_ix4 x⟩
  have hkk : k < 49 := by have h := inbK 1; change k + 1 ≤ 49 at h; omega
  have ha : a + 112 ≤ 118 := inbL 1
  have hb' : b + 112 ≤ 118 := inbL 2
  have hi : a + i.val < 118 := by have := i.isLt; omega
  have hj : b + j.val < 118 := by have := j.isLt; omega
  rw [out_idx k inbK p u i j hkk]
  refine (pay_apply _ _ p u i j).trans ?_
  show (x0 (r0_0.idx (ix3 p i j)) : EReal) - (x0 ((Rect.unit (s := S8x118x118) ![0, a, b] S8x112x112.size inbL).idx (ix3 p i j)) : EReal) = Gc x0 p ⟨k, hkk⟩ i j
  rw [ctr_idx, nbr_idx a b inbL p i j hi hj]
  unfold Gc
  rw [ix3_congr p hi (nbr_row_lt ⟨k, hkk⟩ i) hj (nbr_col_lt ⟨k, hkk⟩ j) (by show a + i.val = k / 7 + i.val; omega) (by show b + j.val = k % 7 + j.val; omega)]

/-- The output block at `(b, kk, i, j)`: the 49 stores all restrict one function of the index, and their rectangles cover
    the block. -/
theorem out0_1_apply (x0 : FVec Ideal S8x118x118 .f32) (b : Fin 8) (kk : Fin 49) (i j : Fin 112) :
    (out0_1 (F := Ideal) x0 (ix4 b kk i j) : EReal)
      = (x0 (ix3 b ⟨3 + i.val, ctr_lt i⟩ ⟨3 + j.val, ctr_lt j⟩) : EReal)
        - (x0 (ix3 b ⟨kk.val / 7 + i.val, nbr_row_lt kk i⟩ ⟨kk.val % 7 + j.val, nbr_col_lt kk j⟩) : EReal) := by
  show out0_1 (F := Ideal) x0 (ix4 b kk i j) = G x0 (ix4 b kk i j)
  unfold out0_1
  refine View.canon_apply_of_pieces (G x0) _ ?_ _
    (cover0_1 _ _ _ _ _ _ _ _ _ _ _ _ _ _ _ _ _ _ _ _ _ _ _ _ _ _ _ _ _ _ _ _ _ _ _ _ _ _ _ _ _ _ _ _ _ _ _ _ _ (ix4 b kk i j))
  repeat' (first | exact fun _ h => absurd h List.not_mem_nil | refine List.forall_mem_cons.mpr ⟨?_, ?_⟩)
  all_goals (intro x; refine pay_restricts x0 _ _ _ ?_ ?_ ?_ ?_ x <;> decide)

end Cert.KernelIdeal.KerBody

end
-- ==== Proof.KerValue.lean ====
/-
  The kernel program's result as one function of its argument.

  The region runs over 32 grid points; point t stages planes 8·t … 8·t + 7 of the padded array (118 × 118 each) and
  writes back planes 8·t … 8·t + 7 of the output array [256, 49, 112, 112]. What the body leaves in the output block is
  one function of the input block (centre minus neighbour, per window offset), so what point t writes back is block t of
  ONE function G2 of the padded planes; the 32 blocks tile the output array, so the array ends at G2 everywhere. The one
  host line after the region reshapes [256, 49, 112, 112] to [4, 64, 49, 12544], which keeps row-major positions: entry
  (n, c, kk, p) is entry (64·n + c, kk, p / 112, p % 112). Read through the padded planes this is the specification's
  centre minus reflected neighbour.
-/
import proofs.«121657_j40475771798075_1_alg».proof.Proof.KerPad
import proofs.«121657_j40475771798075_1_alg».proof.Proof.KerBody
import Idealize.ShloMosaic.Lib.Pipeline.Value
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx Cert.Unfold
open Idealize.ShloMosaic.Pipeline (Dat)

variable (m : (ℓ : Loc nD τ sig) → Buf (Elt Ideal) ℓ) (ρ : Dev nD → PrngReg)

/-- Per plane: the centre of the window minus its neighbour at offset `kk = 7·a + b`, over the padded plane. -/
def G2c (xp : FVec Ideal S256x118x118 .f32) (b : Fin 256) (kk : Fin 49) (i j : Fin 112) : EReal :=
  (xp (ix3 b ⟨3 + i.val, KerBody.ctr_lt i⟩ ⟨3 + j.val, KerBody.ctr_lt j⟩) : EReal)
    - (xp (ix3 b ⟨kk.val / 7 + i.val, KerBody.nbr_row_lt kk i⟩ ⟨kk.val % 7 + j.val, KerBody.nbr_col_lt kk j⟩) : EReal)

/-- The region's output array as one function of the padded planes. -/
def G2 (xp : FVec Ideal S256x118x118 .f32) : FVec Ideal S256x49x112x112 .f32 := fun y => G2c xp (y 0) (y 1) (y 2) (y 3)

/-- The printed index maps, decided over the 32 grid points: both windows sit at block `t` of the plane axis and at
    block 0 of every other axis. -/
theorem idx_facts : ∀ t : Fin cfg0.N, win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

theorem pt_lt (t : Fin cfg0.N) : t.val < 32 := by
  have h := t.isLt
  have e : cfg0.N = 32 := N_0
  omega

theorem plane_lt (t : Fin cfg0.N) (b : Fin 8) : 8 * t.val + b.val < 256 := by
  have := pt_lt t; have := b.isLt; omega

/-- Where an element of point `t`'s input block sits in the padded planes: plane `8·t + b`, same row and column. -/
theorem emb0 (t : Fin cfg0.N) (z : S8x118x118.Idx) :
    ((cfg0.win 0).blk t).view.emb z = ix3 ⟨8 * t.val + (z 0).val, plane_lt t (z 0)⟩ (z 1) (z 2) := by
  obtain ⟨e0, e1, e2, -, -, -, -⟩ := idx_facts t
  funext a; apply Fin.ext
  match a with
  | ⟨0, _⟩ => show win0_0.index t (0 : Fin 3) * 8 + 1 * (z 0).val = 8 * t.val + (z 0).val; omega
  | ⟨1, _⟩ => show win0_0.index t (1 : Fin 3) * 118 + 1 * (z 1).val = (z 1).val; omega
  | ⟨2, _⟩ => show win0_0.index t (2 : Fin 3) * 118 + 1 * (z 2).val = (z 2).val; omega

/-- Where an element of point `t`'s output block sits in the output array: plane `8·t + b`, the other coordinates kept. -/
theorem emb1 (t : Fin cfg0.N) (j : S8x49x112x112.Idx) :
    ((cfg0.win 1).blk t).view.emb j = ix4 ⟨8 * t.val + (j 0).val, plane_lt t (j 0)⟩ (j 1) (j 2) (j 3) := by
  obtain ⟨-, -, -, e0, e1, e2, e3⟩ := idx_facts t
  funext a; apply Fin.ext
  match a with
  | ⟨0, _⟩ => show win0_1.index t (0 : Fin 4) * 8 + 1 * (j 0).val = 8 * t.val + (j 0).val; omega
  | ⟨1, _⟩ => show win0_1.index t (1 : Fin 4) * 49 + 1 * (j 1).val = (j 1).val; omega
  | ⟨2, _⟩ => show win0_1.index t (2 : Fin 4) * 112 + 1 * (j 2).val = (j 2).val; omega
  | ⟨3, _⟩ => show win0_1.index t (3 : Fin 4) * 112 + 1 * (j 3).val = (j 3).val; omega

/-- The input block at a point is the padded planes read through the block. -/
theorem iblk_read (c : Dev nD) (t : Fin cfg0.N) (z : S8x118x118.Idx) :
    iblk m c 0 t z = V m c main_v1 (ix3 ⟨8 * t.val + (z 0).val, plane_lt t (z 0)⟩ (z 1) (z 2)) := by
  show V m c main_v1 (((cfg0.win 0).blk t).view.emb z) = _
  exact congrArg (V m c main_v1) (emb0 t z)

/-- What the body leaves in the output block, at a bare index of the block. -/
theorem body_at (x0 : FVec Ideal S8x118x118 .f32) (y : S8x49x112x112.Idx) :
    (out0_1 (F := Ideal) x0 y : EReal)
      = (x0 (ix3 (y 0) ⟨3 + (y 2).val, KerBody.ctr_lt (y 2)⟩ ⟨3 + (y 3).val, KerBody.ctr_lt (y 3)⟩) : EReal)
        - (x0 (ix3 (y 0) ⟨(y 1).val / 7 + (y 2).val, KerBody.nbr_row_lt (y 1) (y 2)⟩ ⟨(y 1).val % 7 + (y 3).val, KerBody.nbr_col_lt (y 1) (y 3)⟩) : EReal) := by
  exact (congrArg (fun z => (out0_1 (F := Ideal) x0 z : EReal)) (eq_ix4 y)).trans
    (KerBody.out0_1_apply x0 (y 0) (y 1) (y 2) (y 3))

/-- WHAT POINT `t` WRITES BACK is block `t` of `G2` of the padded planes. -/
theorem flushed_eq (c : Dev nD) (t : Fin cfg0.N) :
    (dats m 0 c).flushed 1 t = ((cfg0.win 1).blk t).view.read (Elt Ideal) (G2 (V m c main_v1)) := by
  show (cfg0.win 1).cut (grid0.coords t) ((dats m 0 c).after 1 t) = _
  rw [after0_1]
  funext j
  show out0_1 (iblk m c 0 t) j = G2 (V m c main_v1) (((cfg0.win 1).blk t).view.emb j)
  rw [emb1]
  refine (body_at (iblk m c 0 t) j).trans ?_
  rw [iblk_read, iblk_read]
  rfl

/-- An index of the output array is in point `t`'s block iff each coordinate is in the block's range on its axis. -/
theorem mem_blk (t : Fin cfg0.N) (i : S256x49x112x112.Idx) :
    i ∈ ((cfg0.win 1).blk t).view.set ↔ ∀ a : Fin 4, win0_1.index t a * S8x49x112x112.size a ≤ (i a).val
      ∧ (i a).val < win0_1.index t a * S8x49x112x112.size a + S8x49x112x112.size a := by
  show i ∈ ((View.whole main_v2).slice (win0_1.rect t)).set ↔ _
  rw [View.set_slice_whole, Rect.mem_set_unit]
  exact Iff.rfl

/-- Every index of the output array lies in the block of the point that holds its plane: point `b / 8` for plane `b`. -/
theorem cover (i : S256x49x112x112.Idx) :
    ∃ t : Fin cfg0.N, (cfg0.win 1).flush t = true ∧ i ∈ ((cfg0.win 1).blk t).view.set := by
  have hi0 : (i 0).val < 256 := (i 0).isLt
  have hi1 : (i 1).val < 49 := (i 1).isLt
  have hi2 : (i 2).val < 112 := (i 2).isLt
  have hi3 : (i 3).val < 112 := (i 3).isLt
  have hN : cfg0.N = 32 := N_0
  obtain ⟨t, ht⟩ : ∃ t : Fin cfg0.N, t.val = (i 0).val / 8 := ⟨⟨(i 0).val / 8, by omega⟩, rfl⟩
  obtain ⟨-, -, -, e0, e1, e2, e3⟩ := idx_facts t
  refine ⟨t, flush0_1 t, ?_⟩
  rw [mem_blk]
  intro a
  match a with
  | ⟨0, _⟩ => show win0_1.index t (0 : Fin 4) * 8 ≤ (i 0).val ∧ (i 0).val < win0_1.index t (0 : Fin 4) * 8 + 8; omega
  | ⟨1, _⟩ => show win0_1.index t (1 : Fin 4) * 49 ≤ (i 1).val ∧ (i 1).val < win0_1.index t (1 : Fin 4) * 49 + 49; omega
  | ⟨2, _⟩ => show win0_1.index t (2 : Fin 4) * 112 ≤ (i 2).val ∧ (i 2).val < win0_1.index t (2 : Fin 4) * 112 + 112; omega
  | ⟨3, _⟩ => show win0_1.index t (3 : Fin 4) * 112 ≤ (i 3).val ∧ (i 3).val < win0_1.index t (3 : Fin 4) * 112 + 112; omega

/-- THE OUTPUT ARRAY after the region: `G2` of the padded planes, everywhere. -/
theorem final (c : Dev nD) : (dats m 0 c).arrAt 1 cfg0.N = G2 (V m c main_v1) :=
  (dats m 0 c).arrAt_eq_of_cover 1 (G2 (V m c main_v1)) (fun t _ => flushed_eq m c t) cover

/-! ## The line after the region, and the result read at an index -/

/-- After the run the result buffer holds the output array's elements, in row-major order, at the result's shape. -/
theorem post_v3 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v3)
      = shapeCast S4x64x49x12544 (G2 (V m c main_v1)) shapeCasts_S256x49x112x112_S4x64x49x12544 := by
  refine ((h c).2 main_v3 (Pipeline.mem_restRefs_of main_v3 (by decide) (by decide))).trans ?_
  unfold Pipeline.afterTail₀
  show StableHlo.after hostOps1 _ (Proc.devRef .tc main_v3) = _
  after_results
  have hw : Pipeline.withArrays spec0 c (V0 m c) (fun w => (dats m 0 c).arrAt w cfg0.N) (Proc.devRef .tc (Pipeline.arrRef spec0 1))
      = G2 (V m c main_v1) :=
    (Pipeline.withArrays_arr spec0 launch0.win.arr_inj c _ _ 1).trans (final m c)
  funext i
  show shapeCast S4x64x49x12544 (Pipeline.withArrays spec0 c (V0 m c) (fun w => (dats m 0 c).arrAt w cfg0.N)
      (Proc.devRef .tc (Pipeline.arrRef spec0 1))) shapeCasts_S256x49x112x112_S4x64x49x12544 i = _
  rw [hw]

/-- After the run the argument is as launched. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

theorem ix3_congr {n0 n1 n2 : Nat} {a a' : Fin n0} {b b' : Fin n1} {c c' : Fin n2} (ha : a = a') (hb : b = b') (hc : c = c') :
    ix3 a b c = ix3 a' b' c' := by subst ha hb hc; rfl

theorem ix4_congr {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha hb hc hd; rfl

theorem plane_of_lt (n : Fin 4) (c : Fin 64) : 64 * n.val + c.val < 256 := by have := n.isLt; have := c.isLt; omega

/-- THE RESULT AT AN INDEX. Entry `(n, c, kk, p)` of the reshaped output is entry `(64·n + c, kk, p / 112, p % 112)` of the
    region's output array (both sit at the same row-major position), which is the centre minus the neighbour over the
    padded plane `64·n + c`; the padded plane reads the argument's plane `(n, c)` at the reflected positions, and inside
    the image the reflection of `3 + i` is `i`. -/
theorem result_apply (x : FVec Ideal S4x64x112x112 .f32) (n : Fin 4) (c : Fin 64) (kk : Fin 49) (p : Fin 12544) :
    shapeCast S4x64x49x12544 (G2 (Term.kpad x)) shapeCasts_S256x49x112x112_S4x64x49x12544 (ix4 n c kk p) = Gc x n c kk p := by
  have hp := p.isLt
  have hn := n.isLt
  have hc := c.isLt
  have hkk := kk.isLt
  rw [shapeCast_apply (G2 (Term.kpad x)) shapeCasts_S256x49x112x112_S4x64x49x12544 (ix4 n c kk p)
    (ix4 ⟨64 * n.val + c.val, plane_of_lt n c⟩ kk ⟨p.val / 112, row_lt p⟩ ⟨p.val % 112, col_lt p⟩)
    (by rw [Shape.rowMajor_val_four, Shape.rowMajor_val_four]
        show (((64 * n.val + c.val) * 49 + kk.val) * 112 + p.val / 112) * 112 + p.val % 112
          = ((n.val * 64 + c.val) * 49 + kk.val) * 12544 + p.val
        omega)]
  show G2c (Term.kpad x) ⟨64 * n.val + c.val, plane_of_lt n c⟩ kk ⟨p.val / 112, row_lt p⟩ ⟨p.val % 112, col_lt p⟩ = Gc x n c kk p
  unfold G2c Gc
  rw [KerPad.kpad_apply, KerPad.kpad_apply]
  have hrow : refl (3 + p.val / 112) = p.val / 112 := refl_add_three (row_lt p)
  have hcol : refl (3 + p.val % 112) = p.val % 112 := refl_add_three (col_lt p)
  refine congrArg₂ (fun (u v : EReal) => u - v) (congrArg x (ix4_congr ?_ ?_ ?_ ?_)) (congrArg x (ix4_congr ?_ ?_ ?_ ?_))
  · exact Fin.ext (by show (64 * n.val + c.val) / 64 = n.val; omega)
  · exact Fin.ext (by show (64 * n.val + c.val) % 64 = c.val; omega)
  · exact Fin.ext (by show refl (3 + p.val / 112) = p.val / 112; exact hrow)
  · exact Fin.ext (by show refl (3 + p.val % 112) = p.val % 112; exact hcol)
  · exact Fin.ext (by show (64 * n.val + c.val) / 64 = n.val; omega)
  · exact Fin.ext (by show (64 * n.val + c.val) % 64 = c.val; omega)
  · exact Fin.ext (by show refl (kk.val / 7 + p.val / 112) = refl (p.val / 112 + kk.val / 7); rw [Nat.add_comm])
  · exact Fin.ext (by show refl (kk.val % 7 + p.val % 112) = refl (p.val % 112 + kk.val % 7); rw [Nat.add_comm])

/-- The reshaped output as one function of the argument. -/
theorem result_eq (x : FVec Ideal S4x64x112x112 .f32) :
    shapeCast S4x64x49x12544 (G2 (Term.kpad x)) shapeCasts_S256x49x112x112_S4x64x49x12544 = G x := by
  funext y
  rw [eq_ix4 y]
  exact result_apply x _ _ _ _

/-! ## The run, read -/

/-- Every weakly fair execution of the kernel program terminates with the result buffer at `G` of the argument and the
    argument unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0))
      ∧ r.2.mem ((c : Thread nD τ).loc main_arg0) = m ((c : Thread nD τ).loc main_arg0) :=
  (θ_run defs _ _).mono (fun r h c => ⟨(post_v3 m r h c).trans (by rw [KerPad.V_main_v1]; exact result_eq _),
      kept_arg0 m r h c⟩)
    (run_main m ρ)

end Cert.KernelIdeal.KerValue

end
-- ==== Proof.RefTerm.lean ====
/-
  The reference's host operations as pure functions of the argument array: the reflect-padded array, the table
  of start indices its gather reads, and the result. One `let` per operation of the printed program, in its order, over
  the printed shapes and shape relations; nothing is proved here.
-/
import proofs.«121657_j40475771798075_1_alg».proof.ReferenceIdeal

noncomputable section

namespace Cert.ReferenceIdeal.Term

open Idealize.ShloMosaic Cert.ReferenceIdeal

variable {F : FTy → Type} [FloatOps F] [Facts]
open Facts₀ Facts

/-- The argument reflect-padded by three on each side of its two image axes: below and above along the rows (three
    rows next to the edge, reversed, joined before and after), then the same along the columns of the row-padded array. -/
def xpad (x : FVec F S4x64x112x112 .f32) : FVec F S4x64x118x118 .f32 :=
  let v1 : FVec F S4x64x3x112 .f32 := extractStridedSlice S4x64x3x112 ![0, 0, 1, 0] x slices_S4x64x112x112_S4x64x3x112_0_0_1_0
  let v2 : FVec F S4x64x3x112 .f32 := Host.reverse [2] v1
  let v3 : FVec F S4x64x115x112 .f32 := concatenate S4x64x115x112 2 [⟨S4x64x3x112, v2⟩, ⟨S4x64x112x112, x⟩] concatenates_S4x64x3x112_S4x64x112x112_S4x64x115x112_d2
  let v5 : FVec F S4x64x3x112 .f32 := extractStridedSlice S4x64x3x112 ![0, 0, 111, 0] v3 slices_S4x64x115x112_S4x64x3x112_0_0_111_0
  let v6 : FVec F S4x64x3x112 .f32 := Host.reverse [2] v5
  let v7 : FVec F S4x64x118x112 .f32 := concatenate S4x64x118x112 2 [⟨S4x64x115x112, v3⟩, ⟨S4x64x3x112, v6⟩] concatenates_S4x64x115x112_S4x64x3x112_S4x64x118x112_d2
  let v9 : FVec F S4x64x118x3 .f32 := extractStridedSlice S4x64x118x3 ![0, 0, 0, 1] v7 slices_S4x64x118x112_S4x64x118x3_0_0_0_1
  let v10 : FVec F S4x64x118x3 .f32 := Host.reverse [3] v9
  let v11 : FVec F S4x64x118x115 .f32 := concatenate S4x64x118x115 3 [⟨S4x64x118x3, v10⟩, ⟨S4x64x118x112, v7⟩] concatenates_S4x64x118x3_S4x64x118x112_S4x64x118x115_d3
  let v13 : FVec F S4x64x118x3 .f32 := extractStridedSlice S4x64x118x3 ![0, 0, 0, 111] v11 slices_S4x64x118x115_S4x64x118x3_0_0_0_111
  let v14 : FVec F S4x64x118x3 .f32 := Host.reverse [3] v13
  concatenate S4x64x118x118 3 [⟨S4x64x118x115, v11⟩, ⟨S4x64x118x3, v14⟩] concatenates_S4x64x118x115_S4x64x118x3_S4x64x118x118_d3

/-- The table `[i, a] ↦ i + a` of the padded positions a window touches along one image axis (an iota of the 112
    positions times one, plus an iota of the 7 offsets times one), as 32-bit words. The program computes it twice,
    once for the rows and once for the columns, by the same operations. -/
def posTable : IVec S112x7 32 :=
  let v1 : IVec S7 32 := iotaInDim S7 32 0
  let v2 : IVec S7 32 := broadcastInDim S7 ![] bcast_S_S7 (constantI S_ 32 1#32)
  let v3 : IVec S7 32 := muli v1 v2
  let v4 : IVec S112 32 := iotaInDim S112 32 0
  let v5 : IVec S112x1 32 := broadcastInDim S112x1 ![0] bcast_S112_S112x1_0 v4
  let v6 : IVec S112x1 32 := broadcastInDim S112x1 ![] bcast_S_S112x1 (constantI S_ 32 1#32)
  let v7 : IVec S112x1 32 := muli v5 v6
  let v8 : IVec S1x7 32 := broadcastInDim S1x7 ![1] bcast_S7_S1x7_1 v3
  let v9 : IVec S112x7 32 := broadcastInDim S112x7 ![0, 1] bcast_S112x1_S112x7_0_1 v7
  let v10 : IVec S112x7 32 := broadcastInDim S112x7 ![0, 1] bcast_S1x7_S112x7_0_1 v8
  addi v9 v10

/-- The gather's start indices `[i, a, j, b, ·] = (i + a, j + b)`: each table with 118 added where it is negative
    (it never is), spread over the other pair of axes, and the two joined along a last axis of length two. -/
def gidx : IVec S112x7x112x7x2 32 :=
  let v20 : IVec S112x7x1x1 32 := broadcastInDim S112x7x1x1 ![0, 1] bcast_S112x7_S112x7x1x1_0_1 posTable
  let v21 : IVec S1x1x112x7 32 := broadcastInDim S1x1x112x7 ![2, 3] bcast_S112x7_S1x1x112x7_2_3 posTable
  let v22 : IVec S112x7x1x1 32 := broadcastInDim S112x7x1x1 ![] bcast_S_S112x7x1x1 (constantI S_ 32 0#32)
  let v23 : IVec S112x7x1x1 1 := cmpi .slt v20 v22
  let v24 : IVec S112x7x1x1 32 := broadcastInDim S112x7x1x1 ![] bcast_S_S112x7x1x1 (constantI S_ 32 118#32)
  let v25 : IVec S112x7x1x1 32 := addi v20 v24
  let v26 : IVec S112x7x1x1 32 := select v23 v25 v20
  let v27 : IVec S1x1x112x7 32 := broadcastInDim S1x1x112x7 ![] bcast_S_S1x1x112x7 (constantI S_ 32 0#32)
  let v28 : IVec S1x1x112x7 1 := cmpi .slt v21 v27
  let v29 : IVec S1x1x112x7 32 := broadcastInDim S1x1x112x7 ![] bcast_S_S1x1x112x7 (constantI S_ 32 118#32)
  let v30 : IVec S1x1x112x7 32 := addi v21 v29
  let v31 : IVec S1x1x112x7 32 := select v28 v30 v21
  let v32 : IVec S112x7x112x7 32 := broadcastInDim S112x7x112x7 ![0, 1, 2, 3] bcast_S112x7x1x1_S112x7x112x7_0_1_2_3 v26
  let v33 : IVec S112x7x112x7 32 := broadcastInDim S112x7x112x7 ![0, 1, 2, 3] bcast_S1x1x112x7_S112x7x112x7_0_1_2_3 v31
  let v34 : IVec S112x7x112x7x1 32 := broadcastInDim S112x7x112x7x1 ![0, 1, 2, 3] bcast_S112x7x112x7_S112x7x112x7x1_0_1_2_3 v32
  let v35 : IVec S112x7x112x7x1 32 := broadcastInDim S112x7x112x7x1 ![0, 1, 2, 3] bcast_S112x7x112x7_S112x7x112x7x1_0_1_2_3 v33
  concatenate S112x7x112x7x2 4 [⟨S112x7x112x7x1, v34⟩, ⟨S112x7x112x7x1, v35⟩] concatenates_S112x7x112x7x1_S112x7x112x7x1_S112x7x112x7x2_d4

/-- The neighbours `[n, c, 7·a + b, 112·i + j] = xpad[n, c, i + a, j + b]`: the gather, its window axes moved in front
    of the image axes, each pair flattened. -/
def nbrs (x : FVec F S4x64x112x112 .f32) : FVec F S4x64x49x12544 .f32 :=
  let v37 : FVec F S4x64x112x7x112x7 .f32 := Host.gather gather_S4x64x118x118_S112x7x112x7x2_S4x64x112x7x112x7_01_23_n_n_23_4_46411 (xpad x) gidx
  let v38 : FVec F S4x64x7x7x112x112 .f32 := transpose S4x64x7x7x112x112 [0, 1, 3, 5, 2, 4] v37 transposes_S4x64x112x7x112x7_S4x64x7x7x112x112_0_1_3_5_2_4
  shapeCast S4x64x49x12544 v38 shapeCasts_S4x64x7x7x112x112_S4x64x49x12544

/-- The centres `[n, c, ·, 112·i + j] = x[n, c, i, j]`, the same for every window offset. -/
def ctrs (x : FVec F S4x64x112x112 .f32) : FVec F S4x64x49x12544 .f32 :=
  let v40 : FVec F S4x64x1x12544 .f32 := shapeCast S4x64x1x12544 x shapeCasts_S4x64x112x112_S4x64x1x12544
  broadcastInDim S4x64x49x12544 ![0, 1, 2, 3] bcast_S4x64x1x12544_S4x64x49x12544_0_1_2_3 v40

/-- The reference's result: centre minus neighbour. -/
def refOut (x : FVec F S4x64x112x112 .f32) : FVec F S4x64x49x12544 .f32 := subf (ctrs x) (nbrs x)

end Cert.ReferenceIdeal.Term

end
-- ==== Proof.RefRun.lean ====
/-
  The reference program's run. Its sixty-six host operations in order: one constant, the sixteen of the reflect
  padding (per image axis: the three positions next to each edge are sliced, reversed and joined before and after),
  then the table of start positions i + a and j + b, the gather of the padded array at them, the move of the window
  axes in front of the image axes, the flattening, and the subtraction from the centres. Every weakly fair execution
  ends with the result buffer at the composed term of the argument's launch contents and the argument unchanged.
-/
import proofs.«121657_j40475771798075_1_alg».proof.Proof.Gen.ReferenceIdeal
import proofs.«121657_j40475771798075_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two arrays joined along one axis: the program's two-operand concatenation, the operands as plain arguments. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The operations in order: the constant, the padding's sixteen (each reversal written into the buffer of its
    call), then the forty-nine that build the start positions, gather, re-lay and subtract. -/
abbrev ops : List (HloOp τ sig (Elt F)) :=
  [ StableHlo.nullary main_c (constantI S_ 32 0#32),
    StableHlo.TRef.unary (.of main_arg0 : StableHlo.TRef sig ⟨S4x64x112x112, .f32⟩) (.of main_call0_v0 : StableHlo.TRef sig ⟨S4x64x1x112, .f32⟩) (extractStridedSlice S4x64x1x112 ![0, 0, 0, 0] · slices_S4x64x112x112_S4x64x1x112_0_0_0_0),
    StableHlo.TRef.unary (.of main_arg0 : StableHlo.TRef sig ⟨S4x64x112x112, .f32⟩) (.of main_call0_v1 : StableHlo.TRef sig ⟨S4x64x3x112, .f32⟩) (extractStridedSlice S4x64x3x112 ![0, 0, 1, 0] · slices_S4x64x112x112_S4x64x3x112_0_0_1_0),
    StableHlo.TRef.unary (.of main_call0_v1 : StableHlo.TRef sig ⟨S4x64x3x112, .f32⟩) main_call0_call0.v0 (Host.reverse [2]),
    StableHlo.TRef.binary main_call0_call0.v0 (.of main_arg0 : StableHlo.TRef sig ⟨S4x64x112x112, .f32⟩) (.of main_call0_v3 : StableHlo.TRef sig ⟨S4x64x115x112, .f32⟩) (cat2 S4x64x115x112 2 S4x64x3x112 S4x64x112x112 concatenates_S4x64x3x112_S4x64x112x112_S4x64x115x112_d2),
    StableHlo.TRef.unary (.of main_call0_v3 : StableHlo.TRef sig ⟨S4x64x115x112, .f32⟩) (.of main_call0_v4 : StableHlo.TRef sig ⟨S4x64x1x112, .f32⟩) (extractStridedSlice S4x64x1x112 ![0, 0, 114, 0] · slices_S4x64x115x112_S4x64x1x112_0_0_114_0),
    StableHlo.TRef.unary (.of main_call0_v3 : StableHlo.TRef sig ⟨S4x64x115x112, .f32⟩) (.of main_call0_v5 : StableHlo.TRef sig ⟨S4x64x3x112, .f32⟩) (extractStridedSlice S4x64x3x112 ![0, 0, 111, 0] · slices_S4x64x115x112_S4x64x3x112_0_0_111_0),
    StableHlo.TRef.unary (.of main_call0_v5 : StableHlo.TRef sig ⟨S4x64x3x112, .f32⟩) main_call0_call1.v0 (Host.reverse [2]),
    StableHlo.TRef.binary (.of main_call0_v3 : StableHlo.TRef sig ⟨S4x64x115x112, .f32⟩) main_call0_call1.v0 (.of main_call0_v7 : StableHlo.TRef sig ⟨S4x64x118x112, .f32⟩) (cat2 S4x64x118x112 2 S4x64x115x112 S4x64x3x112 concatenates_S4x64x115x112_S4x64x3x112_S4x64x118x112_d2),
    StableHlo.TRef.unary (.of main_call0_v7 : StableHlo.TRef sig ⟨S4x64x118x112, .f32⟩) (.of main_call0_v8 : StableHlo.TRef sig ⟨S4x64x118x1, .f32⟩) (extractStridedSlice S4x64x118x1 ![0, 0, 0, 0] · slices_S4x64x118x112_S4x64x118x1_0_0_0_0),
    StableHlo.TRef.unary (.of main_call0_v7 : StableHlo.TRef sig ⟨S4x64x118x112, .f32⟩) (.of main_call0_v9 : StableHlo.TRef sig ⟨S4x64x118x3, .f32⟩) (extractStridedSlice S4x64x118x3 ![0, 0, 0, 1] · slices_S4x64x118x112_S4x64x118x3_0_0_0_1),
    StableHlo.TRef.unary (.of main_call0_v9 : StableHlo.TRef sig ⟨S4x64x118x3, .f32⟩) main_call0_call2.v0 (Host.reverse [3]),
    StableHlo.TRef.binary main_call0_call2.v0 (.of main_call0_v7 : StableHlo.TRef sig ⟨S4x64x118x112, .f32⟩) (.of main_call0_v11 : StableHlo.TRef sig ⟨S4x64x118x115, .f32⟩) (cat2 S4x64x118x115 3 S4x64x118x3 S4x64x118x112 concatenates_S4x64x118x3_S4x64x118x112_S4x64x118x115_d3),
    StableHlo.TRef.unary (.of main_call0_v11 : StableHlo.TRef sig ⟨S4x64x118x115, .f32⟩) (.of main_call0_v12 : StableHlo.TRef sig ⟨S4x64x118x1, .f32⟩) (extractStridedSlice S4x64x118x1 ![0, 0, 0, 114] · slices_S4x64x118x115_S4x64x118x1_0_0_0_114),
    StableHlo.TRef.unary (.of main_call0_v11 : StableHlo.TRef sig ⟨S4x64x118x115, .f32⟩) (.of main_call0_v13 : StableHlo.TRef sig ⟨S4x64x118x3, .f32⟩) (extractStridedSlice S4x64x118x3 ![0, 0, 0, 111] · slices_S4x64x118x115_S4x64x118x3_0_0_0_111),
    StableHlo.TRef.unary (.of main_call0_v13 : StableHlo.TRef sig ⟨S4x64x118x3, .f32⟩) main_call0_call3.v0 (Host.reverse [3]),
    StableHlo.TRef.binary (.of main_call0_v11 : StableHlo.TRef sig ⟨S4x64x118x115, .f32⟩) main_call0_call3.v0 (.of main_v0 : StableHlo.TRef sig ⟨S4x64x118x118, .f32⟩) (cat2 S4x64x118x118 3 S4x64x118x115 S4x64x118x3 concatenates_S4x64x118x115_S4x64x118x3_S4x64x118x118_d3),
    StableHlo.nullary main_v1 (iotaInDim S7 32 0),
    StableHlo.nullary main_c_0 (constantI S_ 32 1#32),
    StableHlo.unary main_c_0 main_v2 (broadcastInDim S7 ![] bcast_S_S7 : (⟨S_, .i32⟩ : BufTy).Contents (Elt F) → (⟨S7, .i32⟩ : BufTy).Contents (Elt F)),
    StableHlo.binary main_v1 main_v2 main_v3 (muli : (⟨S7, .i32⟩ : BufTy).Contents (Elt F) → (⟨S7, .i32⟩ : BufTy).Contents (Elt F) → (⟨S7, .i32⟩ : BufTy).Contents (Elt F)),
    StableHlo.nullary main_v4 (iotaInDim S112 32 0),
    StableHlo.unary main_v4 main_v5 (broadcastInDim S112x1 ![0] bcast_S112_S112x1_0 : (⟨S112, .i32⟩ : BufTy).Contents (Elt F) → (⟨S112x1, .i32⟩ : BufTy).Contents (Elt F)),
    StableHlo.nullary main_c_1 (constantI S_ 32 1#32),
    StableHlo.unary main_c_1 main_v6 (broadcastInDim S112x1 ![] bcast_S_S112x1 : (⟨S_, .i32⟩ : BufTy).Contents (Elt F) → (⟨S112x1, .i32⟩ : BufTy).Contents (Elt F)),
    StableHlo.binary main_v5 main_v6 main_v7 (muli : (⟨S112x1, .i32⟩ : BufTy).Contents (Elt F) → (⟨S112x1, .i32⟩ : BufTy).Contents (Elt F) → (⟨S112x1, .i32⟩ : BufTy).Contents (Elt F)),
    StableHlo.unary main_v3 main_v8 (broadcastInDim S1x7 ![1] bcast_S7_S1x7_1 : (⟨S7, .i32⟩ : BufTy).Contents (Elt F) → (⟨S1x7, .i32⟩ : BufTy).Contents (Elt F)),
    StableHlo.unary main_v7 main_v9 (broadcastInDim S112x7 ![0, 1] bcast_S112x1_S112x7_0_1 : (⟨S112x1, .i32⟩ : BufTy).Contents (Elt F) → (⟨S112x7, .i32⟩ : BufTy).Contents (Elt F)),
    StableHlo.unary main_v8 main_v10 (broadcastInDim S112x7 ![0, 1] bcast_S1x7_S112x7_0_1 : (⟨S1x7, .i32⟩ : BufTy).Contents (Elt F) → (⟨S112x7, .i32⟩ : BufTy).Contents (Elt F)),
    StableHlo.binary main_v9 main_v10 main_v11 (addi : (⟨S112x7, .i32⟩ : BufTy).Contents (Elt F) → (⟨S112x7, .i32⟩ : BufTy).Contents (Elt F) → (⟨S112x7, .i32⟩ : BufTy).Contents (Elt F)),
    StableHlo.nullary main_v12 (iotaInDim S112 32 0),
    StableHlo.unary main_v12 main_v13 (broadcastInDim S112x1 ![0] bcast_S112_S112x1_0 : (⟨S112, .i32⟩ : BufTy).Contents (Elt F) → (⟨S112x1, .i32⟩ : BufTy).Contents (Elt F)),
    StableHlo.nullary main_c_2 (constantI S_ 32 1#32),
    StableHlo.unary main_c_2 main_v14 (broadcastInDim S112x1 ![] bcast_S_S112x1 : (⟨S_, .i32⟩ : BufTy).Contents (Elt F) → (⟨S112x1, .i32⟩ : BufTy).Contents (Elt F)),
    StableHlo.binary main_v13 main_v14 main_v15 (muli : (⟨S112x1, .i32⟩ : BufTy).Contents (Elt F) → (⟨S112x1, .i32⟩ : BufTy).Contents (Elt F) → (⟨S112x1, .i32⟩ : BufTy).Contents (Elt F)),
    StableHlo.unary main_v3 main_v16 (broadcastInDim S1x7 ![1] bcast_S7_S1x7_1 : (⟨S7, .i32⟩ : BufTy).Contents (Elt F) → (⟨S1x7, .i32⟩ : BufTy).Contents (Elt F)),
    StableHlo.unary main_v15 main_v17 (broadcastInDim S112x7 ![0, 1] bcast_S112x1_S112x7_0_1 : (⟨S112x1, .i32⟩ : BufTy).Contents (Elt F) → (⟨S112x7, .i32⟩ : BufTy).Contents (Elt F)),
    StableHlo.unary main_v16 main_v18 (broadcastInDim S112x7 ![0, 1] bcast_S1x7_S112x7_0_1 : (⟨S1x7, .i32⟩ : BufTy).Contents (Elt F) → (⟨S112x7, .i32⟩ : BufTy).Contents (Elt F)),
    StableHlo.binary main_v17 main_v18 main_v19 (addi : (⟨S112x7, .i32⟩ : BufTy).Contents (Elt F) → (⟨S112x7, .i32⟩ : BufTy).Contents (Elt F) → (⟨S112x7, .i32⟩ : BufTy).Contents (Elt F)),
    StableHlo.unary main_v11 main_v20 (broadcastInDim S112x7x1x1 ![0, 1] bcast_S112x7_S112x7x1x1_0_1 : (⟨S112x7, .i32⟩ : BufTy).Contents (Elt F) → (⟨S112x7x1x1, .i32⟩ : BufTy).Contents (Elt F)),
    StableHlo.unary main_v19 main_v21 (broadcastInDim S1x1x112x7 ![2, 3] bcast_S112x7_S1x1x112x7_2_3 : (⟨S112x7, .i32⟩ : BufTy).Contents (Elt F) → (⟨S1x1x112x7, .i32⟩ : BufTy).Contents (Elt F)),
    StableHlo.nullary main_c_3 (constantI S_ 32 0#32),
    StableHlo.unary main_c_3 main_v22 (broadcastInDim S112x7x1x1 ![] bcast_S_S112x7x1x1 : (⟨S_, .i32⟩ : BufTy).Contents (Elt F) → (⟨S112x7x1x1, .i32⟩ : BufTy).Contents (Elt F)),
    StableHlo.binary main_v20 main_v22 main_v23 (cmpi .slt : (⟨S112x7x1x1, .i32⟩ : BufTy).Contents (Elt F) → (⟨S112x7x1x1, .i32⟩ : BufTy).Contents (Elt F) → (⟨S112x7x1x1, .i1⟩ : BufTy).Contents (Elt F)),
    StableHlo.nullary main_c_4 (constantI S_ 32 118#32),
    StableHlo.unary main_c_4 main_v24 (broadcastInDim S112x7x1x1 ![] bcast_S_S112x7x1x1 : (⟨S_, .i32⟩ : BufTy).Contents (Elt F) → (⟨S112x7x1x1, .i32⟩ : BufTy).Contents (Elt F)),
    StableHlo.binary main_v20 main_v24 main_v25 (addi : (⟨S112x7x1x1, .i32⟩ : BufTy).Contents (Elt F) → (⟨S112x7x1x1, .i32⟩ : BufTy).Contents (Elt F) → (⟨S112x7x1x1, .i32⟩ : BufTy).Contents (Elt F)),
    StableHlo.ternary main_v23 main_v25 main_v20 main_v26 (select : (⟨S112x7x1x1, .i1⟩ : BufTy).Contents (Elt F) → (⟨S112x7x1x1, .i32⟩ : BufTy).Contents (Elt F) → (⟨S112x7x1x1, .i32⟩ : BufTy).Contents (Elt F) → (⟨S112x7x1x1, .i32⟩ : BufTy).Contents (Elt F)),
    StableHlo.nullary main_c_5 (constantI S_ 32 0#32),
    StableHlo.unary main_c_5 main_v27 (broadcastInDim S1x1x112x7 ![] bcast_S_S1x1x112x7 : (⟨S_, .i32⟩ : BufTy).Contents (Elt F) → (⟨S1x1x112x7, .i32⟩ : BufTy).Contents (Elt F)),
    StableHlo.binary main_v21 main_v27 main_v28 (cmpi .slt : (⟨S1x1x112x7, .i32⟩ : BufTy).Contents (Elt F) → (⟨S1x1x112x7, .i32⟩ : BufTy).Contents (Elt F) → (⟨S1x1x112x7, .i1⟩ : BufTy).Contents (Elt F)),
    StableHlo.nullary main_c_6 (constantI S_ 32 118#32),
    StableHlo.unary main_c_6 main_v29 (broadcastInDim S1x1x112x7 ![] bcast_S_S1x1x112x7 : (⟨S_, .i32⟩ : BufTy).Contents (Elt F) → (⟨S1x1x112x7, .i32⟩ : BufTy).Contents (Elt F)),
    StableHlo.binary main_v21 main_v29 main_v30 (addi : (⟨S1x1x112x7, .i32⟩ : BufTy).Contents (Elt F) → (⟨S1x1x112x7, .i32⟩ : BufTy).Contents (Elt F) → (⟨S1x1x112x7, .i32⟩ : BufTy).Contents (Elt F)),
    StableHlo.ternary main_v28 main_v30 main_v21 main_v31 (select : (⟨S1x1x112x7, .i1⟩ : BufTy).Contents (Elt F) → (⟨S1x1x112x7, .i32⟩ : BufTy).Contents (Elt F) → (⟨S1x1x112x7, .i32⟩ : BufTy).Contents (Elt F) → (⟨S1x1x112x7, .i32⟩ : BufTy).Contents (Elt F)),
    StableHlo.unary main_v26 main_v32 (broadcastInDim S112x7x112x7 ![0, 1, 2, 3] bcast_S112x7x1x1_S112x7x112x7_0_1_2_3 : (⟨S112x7x1x1, .i32⟩ : BufTy).Contents (Elt F) → (⟨S112x7x112x7, .i32⟩ : BufTy).Contents (Elt F)),
    StableHlo.unary main_v31 main_v33 (broadcastInDim S112x7x112x7 ![0, 1, 2, 3] bcast_S1x1x112x7_S112x7x112x7_0_1_2_3 : (⟨S1x1x112x7, .i32⟩ : BufTy).Contents (Elt F) → (⟨S112x7x112x7, .i32⟩ : BufTy).Contents (Elt F)),
    StableHlo.unary main_v32 main_v34 (broadcastInDim S112x7x112x7x1 ![0, 1, 2, 3] bcast_S112x7x112x7_S112x7x112x7x1_0_1_2_3 : (⟨S112x7x112x7, .i32⟩ : BufTy).Contents (Elt F) → (⟨S112x7x112x7x1, .i32⟩ : BufTy).Contents (Elt F)),
    StableHlo.unary main_v33 main_v35 (broadcastInDim S112x7x112x7x1 ![0, 1, 2, 3] bcast_S112x7x112x7_S112x7x112x7x1_0_1_2_3 : (⟨S112x7x112x7, .i32⟩ : BufTy).Contents (Elt F) → (⟨S112x7x112x7x1, .i32⟩ : BufTy).Contents (Elt F)),
    StableHlo.binary main_v34 main_v35 main_v36 ((cat2 S112x7x112x7x2 4 S112x7x112x7x1 S112x7x112x7x1 concatenates_S112x7x112x7x1_S112x7x112x7x1_S112x7x112x7x2_d4) : (⟨S112x7x112x7x1, .i32⟩ : BufTy).Contents (Elt F) → (⟨S112x7x112x7x1, .i32⟩ : BufTy).Contents (Elt F) → (⟨S112x7x112x7x2, .i32⟩ : BufTy).Contents (Elt F)),
    StableHlo.binary main_v0 main_v36 main_v37 ((fun x i => Host.gather gather_S4x64x118x118_S112x7x112x7x2_S4x64x112x7x112x7_01_23_n_n_23_4_46411 x i) : (⟨S4x64x118x118, .f32⟩ : BufTy).Contents (Elt F) → (⟨S112x7x112x7x2, .i32⟩ : BufTy).Contents (Elt F) → (⟨S4x64x112x7x112x7, .f32⟩ : BufTy).Contents (Elt F)),
    StableHlo.unary main_v37 main_v38 ((transpose S4x64x7x7x112x112 [0, 1, 3, 5, 2, 4] · transposes_S4x64x112x7x112x7_S4x64x7x7x112x112_0_1_3_5_2_4) : (⟨S4x64x112x7x112x7, .f32⟩ : BufTy).Contents (Elt F) → (⟨S4x64x7x7x112x112, .f32⟩ : BufTy).Contents (Elt F)),
    StableHlo.reshape main_v38 main_v39 rfl shapeCasts_S4x64x7x7x112x112_S4x64x49x12544,
    StableHlo.reshape main_arg0 main_v40 rfl shapeCasts_S4x64x112x112_S4x64x1x12544,
    StableHlo.unary main_v40 main_v41 (broadcastInDim S4x64x49x12544 ![0, 1, 2, 3] bcast_S4x64x1x12544_S4x64x49x12544_0_1_2_3 : (⟨S4x64x1x12544, .f32⟩ : BufTy).Contents (Elt F) → (⟨S4x64x49x12544, .f32⟩ : BufTy).Contents (Elt F)),
    StableHlo.binary main_v41 main_v39 main_v42 (subf : (⟨S4x64x49x12544, .f32⟩ : BufTy).Contents (Elt F) → (⟨S4x64x49x12544, .f32⟩ : BufTy).Contents (Elt F) → (⟨S4x64x49x12544, .f32⟩ : BufTy).Contents (Elt F)) ]

set_option maxRecDepth 4096 in
/-- The program is that straight line: the padding function and its reversals unfolded at their calls, the
    sequencing reassociated, a concatenation of two read as `cat2`. -/
theorem main_eq (c : Dev nD) : main (F := F) c = seq ops := by
  simp only [main, fn_pad.body, fn_flip.body, fn_flip_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., nullary_bufs_sub .., unary_bufs_sub .., binary_bufs_sub .., nullary_bufs_sub .., unary_bufs_sub .., nullary_bufs_sub .., unary_bufs_sub .., binary_bufs_sub .., unary_bufs_sub .., unary_bufs_sub .., unary_bufs_sub .., binary_bufs_sub .., nullary_bufs_sub .., unary_bufs_sub .., nullary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., reshape_bufs_sub .., reshape_bufs_sub .., unary_bufs_sub .., binary_bufs_sub ..⟩

/-- The argument's buffer is written by no operation. -/
theorem arg0_eq (V : Valuation τ sig (Elt F)) :
    after ops V (main_arg0 : DevRef τ sig) = V (main_arg0 : DevRef τ sig) := by
  after_results

/-- The result's buffer after the line: the operations' composed term of the argument. -/
theorem out_eq (V : Valuation τ sig (Elt F)) :
    after ops V (main_v42 : DevRef τ sig) = Term.refOut (V (main_arg0 : DevRef τ sig)) := by
  after_results_simp
  simp only [TRef.ofBuf, TRef.toBuf, cast_eq]
  rfl

/-- On the device, from any memory with zero counters: every weakly fair execution ends with the result buffer at
    centre minus neighbour of the argument's launch contents, and the argument's buffer as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Term.refOut (m ((c.tc : Thread nD τ).loc main_arg0))
      ∧ r.2.mem ((c.tc : Thread nD τ).loc main_arg0) = m ((c.tc : Thread nD τ).loc main_arg0) :=
  (θ_run defs _ _).mono (fun _ h c => ⟨(h c main_v42).trans (out_eq _),
      (h c main_arg0).trans (arg0_eq _)⟩)
    (run_seq scopedRefs_eq scopedSems_eq defs main (fun _ => ops) main_eq (fun _ => ops_sub) m ρ)

end Cert.ReferenceIdeal.RefRun

end
-- ==== Proof.RefPad.lean ====
/-
  The reference's reflect-padded array read at an index. The pad is four rounds, two along the rows and then two along
  the columns: each slices the three positions next to an edge (positions 1, 2, 3 for the low edge, 111, 112, 113 of the
  array so far for the high edge), mirrors them and joins them before or after the array. Read at position p of 118, the
  two rounds of one axis send p to p or 228 - p of 115, and that to 3 - p', p' - 3 of 112: together the reflection refl p,
  so xpad[n, c, r, s] = x[n, c, refl r, refl s].
-/
import proofs.«121657_j40475771798075_1_alg».proof.Proof.Gen.ReferenceIdeal
import proofs.«121657_j40475771798075_1_alg».proof.Proof.RefTerm
import proofs.«121657_j40475771798075_1_alg».proof.Proof.Spec
import Idealize.ShloMosaic.Lib.ValueIdx
import Idealize.ShloMosaic.Lib.Pipeline.Value

noncomputable section

namespace Cert.ReferenceIdeal.RefPad

open Cert.ReferenceIdeal Cert.ReferenceIdeal.Gen Idealize.ShloMosaic Idealize.ShloMosaic.ValueIdx Cert.Unfold

/-! ## The three layout operations of a pad round, read at explicit coordinates of a rank-4 array -/

section Coordinates
variable {α : Type}

/-- Two rank-4 indices that differ only in the spelling of the third coordinate. -/
theorem ix4_congr2 {n0 n1 n2 n3 : Nat} (a : Fin n0) (b : Fin n1) (k k' : Fin n2) (d : Fin n3) (h : k.val = k'.val) :
    ix4 a b k d = ix4 a b k' d := by
  rw [Fin.ext h]

/-- Two rank-4 indices that differ only in the spelling of the fourth coordinate. -/
theorem ix4_congr3 {n0 n1 n2 n3 : Nat} (a : Fin n0) (b : Fin n1) (c : Fin n2) (k k' : Fin n3) (h : k.val = k'.val) :
    ix4 a b c k = ix4 a b c k' := by
  rw [Fin.ext h]

/-- A reverse along the third axis reads the mirrored third coordinate. -/
theorem reverse2_apply {n0 n1 n2 n3 : Nat} (v : (⟨4, ![n0, n1, n2, n3]⟩ : Shape).Idx → α)
    (a : Fin n0) (b : Fin n1) (k : Fin n2) (d : Fin n3) :
    Host.reverse (s := ⟨4, ![n0, n1, n2, n3]⟩) [2] v (ix4 a b k d) = v (ix4 a b k.rev d) := by
  unfold Host.reverse
  refine congrArg v (funext fun e => ?_)
  match e with
  | ⟨0, _⟩ => rfl
  | ⟨1, _⟩ => rfl
  | ⟨2, _⟩ => rfl
  | ⟨3, _⟩ => rfl

/-- A reverse along the fourth axis reads the mirrored fourth coordinate. -/
theorem reverse3_apply {n0 n1 n2 n3 : Nat} (v : (⟨4, ![n0, n1, n2, n3]⟩ : Shape).Idx → α)
    (a : Fin n0) (b : Fin n1) (c : Fin n2) (k : Fin n3) :
    Host.reverse (s := ⟨4, ![n0, n1, n2, n3]⟩) [3] v (ix4 a b c k) = v (ix4 a b c k.rev) := by
  unfold Host.reverse
  refine congrArg v (funext fun e => ?_)
  match e with
  | ⟨0, _⟩ => rfl
  | ⟨1, _⟩ => rfl
  | ⟨2, _⟩ => rfl
  | ⟨3, _⟩ => rfl

/-- A slice that starts at position `o` of the third axis (and at zero elsewhere) reads the third coordinate shifted by `o`. -/
theorem slice2_apply {n0 n1 m p n3 : Nat} (o : Nat) (x : (⟨4, ![n0, n1, m, n3]⟩ : Shape).Idx → α)
    (h : (⟨4, ![n0, n1, m, n3]⟩ : Shape).Slices ![0, 0, o, 0] ⟨4, ![n0, n1, p, n3]⟩)
    (a : Fin n0) (b : Fin n1) (k : Fin p) (d : Fin n3) (hk : o + k.val < m) :
    extractStridedSlice ⟨4, ![n0, n1, p, n3]⟩ ![0, 0, o, 0] x h (ix4 a b k d) = x (ix4 a b ⟨o + k.val, hk⟩ d) := by
  refine extractStridedSlice_apply _ x h _ _ fun e => ?_
  match e with
  | ⟨0, _⟩ => show a.val = 0 + a.val; omega
  | ⟨1, _⟩ => show b.val = 0 + b.val; omega
  | ⟨2, _⟩ => rfl
  | ⟨3, _⟩ => show d.val = 0 + d.val; omega

/-- A slice that starts at position `o` of the fourth axis (and at zero elsewhere) reads the fourth coordinate shifted by `o`. -/
theorem slice3_apply {n0 n1 n2 m p : Nat} (o : Nat) (x : (⟨4, ![n0, n1, n2, m]⟩ : Shape).Idx → α)
    (h : (⟨4, ![n0, n1, n2, m]⟩ : Shape).Slices ![0, 0, 0, o] ⟨4, ![n0, n1, n2, p]⟩)
    (a : Fin n0) (b : Fin n1) (c : Fin n2) (k : Fin p) (hk : o + k.val < m) :
    extractStridedSlice ⟨4, ![n0, n1, n2, p]⟩ ![0, 0, 0, o] x h (ix4 a b c k) = x (ix4 a b c ⟨o + k.val, hk⟩) := by
  refine extractStridedSlice_apply _ x h _ _ fun e => ?_
  match e with
  | ⟨0, _⟩ => show a.val = 0 + a.val; omega
  | ⟨1, _⟩ => show b.val = 0 + b.val; omega
  | ⟨2, _⟩ => show c.val = 0 + c.val; omega
  | ⟨3, _⟩ => rfl

/-- A join of two arrays along the third axis, read below the first array's extent: the first array at the same place. -/
theorem cat2_lt {n0 n1 p q m n3 : Nat} (x₁ : (⟨4, ![n0, n1, p, n3]⟩ : Shape).Idx → α) (x₂ : (⟨4, ![n0, n1, q, n3]⟩ : Shape).Idx → α)
    (h : Shape.Concatenates [⟨4, ![n0, n1, p, n3]⟩, ⟨4, ![n0, n1, q, n3]⟩] ⟨4, ![n0, n1, m, n3]⟩ 2)
    (a : Fin n0) (b : Fin n1) (r : Fin m) (d : Fin n3) (hr : r.val < p) :
    concatenate ⟨4, ![n0, n1, m, n3]⟩ 2 [⟨⟨4, ![n0, n1, p, n3]⟩, x₁⟩, ⟨⟨4, ![n0, n1, q, n3]⟩, x₂⟩] h (ix4 a b r d)
      = x₁ (ix4 a b ⟨r.val, hr⟩ d) := by
  refine concatenate_pair_apply_left _ x₁ x₂ h (ix4 a b r d) rfl (ix4 a b ⟨r.val, hr⟩ d) fun e => ?_
  match e with
  | ⟨0, _⟩ => rfl
  | ⟨1, _⟩ => rfl
  | ⟨2, _⟩ => rfl
  | ⟨3, _⟩ => rfl

/-- A join of two arrays along the third axis, read at or past the first array's extent: the second array, that extent less. -/
theorem cat2_ge {n0 n1 p q m n3 : Nat} (x₁ : (⟨4, ![n0, n1, p, n3]⟩ : Shape).Idx → α) (x₂ : (⟨4, ![n0, n1, q, n3]⟩ : Shape).Idx → α)
    (h : Shape.Concatenates [⟨4, ![n0, n1, p, n3]⟩, ⟨4, ![n0, n1, q, n3]⟩] ⟨4, ![n0, n1, m, n3]⟩ 2)
    (a : Fin n0) (b : Fin n1) (r : Fin m) (d : Fin n3) (hr : p ≤ r.val) (hq : r.val - p < q) :
    concatenate ⟨4, ![n0, n1, m, n3]⟩ 2 [⟨⟨4, ![n0, n1, p, n3]⟩, x₁⟩, ⟨⟨4, ![n0, n1, q, n3]⟩, x₂⟩] h (ix4 a b r d)
      = x₂ (ix4 a b ⟨r.val - p, hq⟩ d) := by
  refine concatenate_pair_apply_right _ x₁ x₂ h (ix4 a b r d) rfl rfl (ix4 a b ⟨r.val - p, hq⟩ d) (fun e he => ?_) ?_
  · match e with
    | ⟨0, _⟩ => rfl
    | ⟨1, _⟩ => rfl
    | ⟨2, _⟩ => exact absurd rfl he
    | ⟨3, _⟩ => rfl
  · show r.val - p + p = r.val; omega

/-- A join of two arrays along the fourth axis, read below the first array's extent: the first array at the same place. -/
theorem cat3_lt {n0 n1 n2 p q m : Nat} (x₁ : (⟨4, ![n0, n1, n2, p]⟩ : Shape).Idx → α) (x₂ : (⟨4, ![n0, n1, n2, q]⟩ : Shape).Idx → α)
    (h : Shape.Concatenates [⟨4, ![n0, n1, n2, p]⟩, ⟨4, ![n0, n1, n2, q]⟩] ⟨4, ![n0, n1, n2, m]⟩ 3)
    (a : Fin n0) (b : Fin n1) (c : Fin n2) (r : Fin m) (hr : r.val < p) :
    concatenate ⟨4, ![n0, n1, n2, m]⟩ 3 [⟨⟨4, ![n0, n1, n2, p]⟩, x₁⟩, ⟨⟨4, ![n0, n1, n2, q]⟩, x₂⟩] h (ix4 a b c r)
      = x₁ (ix4 a b c ⟨r.val, hr⟩) := by
  refine concatenate_pair_apply_left _ x₁ x₂ h (ix4 a b c r) rfl (ix4 a b c ⟨r.val, hr⟩) fun e => ?_
  match e with
  | ⟨0, _⟩ => rfl
  | ⟨1, _⟩ => rfl
  | ⟨2, _⟩ => rfl
  | ⟨3, _⟩ => rfl

/-- A join of two arrays along the fourth axis, read at or past the first array's extent: the second array, that extent less. -/
theorem cat3_ge {n0 n1 n2 p q m : Nat} (x₁ : (⟨4, ![n0, n1, n2, p]⟩ : Shape).Idx → α) (x₂ : (⟨4, ![n0, n1, n2, q]⟩ : Shape).Idx → α)
    (h : Shape.Concatenates [⟨4, ![n0, n1, n2, p]⟩, ⟨4, ![n0, n1, n2, q]⟩] ⟨4, ![n0, n1, n2, m]⟩ 3)
    (a : Fin n0) (b : Fin n1) (c : Fin n2) (r : Fin m) (hr : p ≤ r.val) (hq : r.val - p < q) :
    concatenate ⟨4, ![n0, n1, n2, m]⟩ 3 [⟨⟨4, ![n0, n1, n2, p]⟩, x₁⟩, ⟨⟨4, ![n0, n1, n2, q]⟩, x₂⟩] h (ix4 a b c r)
      = x₂ (ix4 a b c ⟨r.val - p, hq⟩) := by
  refine concatenate_pair_apply_right _ x₁ x₂ h (ix4 a b c r) rfl rfl (ix4 a b c ⟨r.val - p, hq⟩) (fun e he => ?_) ?_
  · match e with
    | ⟨0, _⟩ => rfl
    | ⟨1, _⟩ => rfl
    | ⟨2, _⟩ => rfl
    | ⟨3, _⟩ => exact absurd rfl he
  · show r.val - p + p = r.val; omega

end Coordinates

/-! ## The four rounds of the pad -/

variable {F : FTy → Type} [FloatOps F]

/-- Three rows below: rows 1, 2, 3 of the image, mirrored, joined before it. -/
def rowLo (x : FVec F S4x64x112x112 .f32) : FVec F S4x64x115x112 .f32 :=
  concatenate S4x64x115x112 2
    [⟨S4x64x3x112, Host.reverse [2] (extractStridedSlice S4x64x3x112 ![0, 0, 1, 0] x slices_S4x64x112x112_S4x64x3x112_0_0_1_0)⟩,
     ⟨S4x64x112x112, x⟩] concatenates_S4x64x3x112_S4x64x112x112_S4x64x115x112_d2

/-- Three rows above: rows 111, 112, 113 of the array so far, mirrored, joined after it. -/
def rowHi (y : FVec F S4x64x115x112 .f32) : FVec F S4x64x118x112 .f32 :=
  concatenate S4x64x118x112 2
    [⟨S4x64x115x112, y⟩,
     ⟨S4x64x3x112, Host.reverse [2] (extractStridedSlice S4x64x3x112 ![0, 0, 111, 0] y slices_S4x64x115x112_S4x64x3x112_0_0_111_0)⟩]
    concatenates_S4x64x115x112_S4x64x3x112_S4x64x118x112_d2

/-- Three columns to the left: columns 1, 2, 3 of the row-padded array, mirrored, joined before it. -/
def colLo (z : FVec F S4x64x118x112 .f32) : FVec F S4x64x118x115 .f32 :=
  concatenate S4x64x118x115 3
    [⟨S4x64x118x3, Host.reverse [3] (extractStridedSlice S4x64x118x3 ![0, 0, 0, 1] z slices_S4x64x118x112_S4x64x118x3_0_0_0_1)⟩,
     ⟨S4x64x118x112, z⟩] concatenates_S4x64x118x3_S4x64x118x112_S4x64x118x115_d3

/-- Three columns to the right: columns 111, 112, 113 of the array so far, mirrored, joined after it. -/
def colHi (w : FVec F S4x64x118x115 .f32) : FVec F S4x64x118x118 .f32 :=
  concatenate S4x64x118x118 3
    [⟨S4x64x118x115, w⟩,
     ⟨S4x64x118x3, Host.reverse [3] (extractStridedSlice S4x64x118x3 ![0, 0, 0, 111] w slices_S4x64x118x115_S4x64x118x3_0_0_0_111)⟩]
    concatenates_S4x64x118x115_S4x64x118x3_S4x64x118x118_d3

/-- The padded array is the four rounds in turn. -/
theorem xpad_eq (x : FVec F S4x64x112x112 .f32) : Term.xpad x = colHi (colLo (rowHi (rowLo x))) := rfl

/-- Row `r` of the array padded below reads row `3 - r` of the image under the image, row `r - 3` inside it. -/
theorem rowLo_apply (x : FVec F S4x64x112x112 .f32) (n : Fin 4) (c : Fin 64) (r : Fin 115) (t : Fin 112) :
    rowLo x (ix4 n c r t)
      = x (ix4 n c ⟨if r.val < 3 then 3 - r.val else r.val - 3, by have := r.isLt; split_ifs <;> omega⟩ t) := by
  have hlt := r.isLt
  unfold rowLo
  by_cases hr : r.val < 3
  · rw [cat2_lt _ _ _ n c r t hr, reverse2_apply,
      slice2_apply 1 x _ n c _ t (by have := (Fin.rev (⟨r.val, hr⟩ : Fin 3)).isLt; omega)]
    refine congrArg x (ix4_congr2 _ _ _ _ _ ?_)
    show 1 + (Fin.rev (⟨r.val, hr⟩ : Fin 3)).val = if r.val < 3 then 3 - r.val else r.val - 3
    rw [if_pos hr, Fin.val_rev]
    show 1 + (3 - (r.val + 1)) = 3 - r.val
    omega
  · rw [cat2_ge _ _ _ n c r t (by omega) (by omega)]
    refine congrArg x (ix4_congr2 _ _ _ _ _ ?_)
    show r.val - 3 = if r.val < 3 then 3 - r.val else r.val - 3
    rw [if_neg hr]

/-- Row `r` of the array padded above reads row `r` of the array so far up to its last row, row `228 - r` past it. -/
theorem rowHi_apply (y : FVec F S4x64x115x112 .f32) (n : Fin 4) (c : Fin 64) (r : Fin 118) (t : Fin 112) :
    rowHi y (ix4 n c r t)
      = y (ix4 n c ⟨if r.val < 115 then r.val else 228 - r.val, by have := r.isLt; split_ifs <;> omega⟩ t) := by
  have hlt := r.isLt
  unfold rowHi
  by_cases hr : r.val < 115
  · rw [cat2_lt _ _ _ n c r t hr]
    refine congrArg y (ix4_congr2 _ _ _ _ _ ?_)
    show r.val = if r.val < 115 then r.val else 228 - r.val
    rw [if_pos hr]
  · have hq : r.val - 115 < 3 := by omega
    rw [cat2_ge _ _ _ n c r t (by omega) hq, reverse2_apply,
      slice2_apply 111 y _ n c _ t (by have := (Fin.rev (⟨r.val - 115, hq⟩ : Fin 3)).isLt; omega)]
    refine congrArg y (ix4_congr2 _ _ _ _ _ ?_)
    show 111 + (Fin.rev (⟨r.val - 115, hq⟩ : Fin 3)).val = if r.val < 115 then r.val else 228 - r.val
    rw [if_neg hr, Fin.val_rev]
    show 111 + (3 - (r.val - 115 + 1)) = 228 - r.val
    omega

/-- Column `s` of the array padded to the left reads column `3 - s` of the array so far left of it, column `s - 3` inside it. -/
theorem colLo_apply (z : FVec F S4x64x118x112 .f32) (n : Fin 4) (c : Fin 64) (r : Fin 118) (s : Fin 115) :
    colLo z (ix4 n c r s)
      = z (ix4 n c r ⟨if s.val < 3 then 3 - s.val else s.val - 3, by have := s.isLt; split_ifs <;> omega⟩) := by
  have hlt := s.isLt
  unfold colLo
  by_cases hs : s.val < 3
  · rw [cat3_lt _ _ _ n c r s hs, reverse3_apply,
      slice3_apply 1 z _ n c r _ (by have := (Fin.rev (⟨s.val, hs⟩ : Fin 3)).isLt; omega)]
    refine congrArg z (ix4_congr3 _ _ _ _ _ ?_)
    show 1 + (Fin.rev (⟨s.val, hs⟩ : Fin 3)).val = if s.val < 3 then 3 - s.val else s.val - 3
    rw [if_pos hs, Fin.val_rev]
    show 1 + (3 - (s.val + 1)) = 3 - s.val
    omega
  · rw [cat3_ge _ _ _ n c r s (by omega) (by omega)]
    refine congrArg z (ix4_congr3 _ _ _ _ _ ?_)
    show s.val - 3 = if s.val < 3 then 3 - s.val else s.val - 3
    rw [if_neg hs]

/-- Column `s` of the array padded to the right reads column `s` of the array so far up to its last column, column `228 - s` past it. -/
theorem colHi_apply (w : FVec F S4x64x118x115 .f32) (n : Fin 4) (c : Fin 64) (r : Fin 118) (s : Fin 118) :
    colHi w (ix4 n c r s)
      = w (ix4 n c r ⟨if s.val < 115 then s.val else 228 - s.val, by have := s.isLt; split_ifs <;> omega⟩) := by
  have hlt := s.isLt
  unfold colHi
  by_cases hs : s.val < 115
  · rw [cat3_lt _ _ _ n c r s hs]
    refine congrArg w (ix4_congr3 _ _ _ _ _ ?_)
    show s.val = if s.val < 115 then s.val else 228 - s.val
    rw [if_pos hs]
  · have hq : s.val - 115 < 3 := by omega
    rw [cat3_ge _ _ _ n c r s (by omega) hq, reverse3_apply,
      slice3_apply 111 w _ n c r _ (by have := (Fin.rev (⟨s.val - 115, hq⟩ : Fin 3)).isLt; omega)]
    refine congrArg w (ix4_congr3 _ _ _ _ _ ?_)
    show 111 + (Fin.rev (⟨s.val - 115, hq⟩ : Fin 3)).val = if s.val < 115 then s.val else 228 - s.val
    rw [if_neg hs, Fin.val_rev]
    show 111 + (3 - (s.val - 115 + 1)) = 228 - s.val
    omega

/-- The two rounds of one axis together are the reflection: position `p` of 118 goes to `p` or `228 - p` of 115, and that to `refl p` of 112. -/
theorem refl_two_rounds {p : ℕ} (h : p < 118) :
    (if (if p < 115 then p else 228 - p) < 3 then 3 - (if p < 115 then p else 228 - p) else (if p < 115 then p else 228 - p) - 3) = refl p := by
  unfold Cert.Unfold.refl
  split_ifs <;> omega

/-- The reference's padded array at `(n, c, r, s)` is the image at `(n, c, refl r, refl s)`. -/
theorem xpad_apply (x : FVec F S4x64x112x112 .f32) (n : Fin 4) (c : Fin 64) (r s : Fin 118) :
    Term.xpad x (ix4 n c r s) = x (ix4 n c ⟨refl r.val, refl_lt r.isLt⟩ ⟨refl s.val, refl_lt s.isLt⟩) := by
  rw [xpad_eq, colHi_apply, colLo_apply, rowHi_apply, rowLo_apply]
  refine congrArg x ?_
  refine (ix4_congr2 _ _ _ _ _ ?_).trans (ix4_congr3 _ _ _ _ _ ?_)
  · exact refl_two_rounds r.isLt
  · exact refl_two_rounds s.isLt

end Cert.ReferenceIdeal.RefPad

end
-- ==== Proof.RefValue.lean ====
/-
  The reference's result read at an index. The centres are the argument reshaped and repeated over the 49 window
  offsets, so entry (n, c, kk, p) is x[n, c, p / 112, p % 112]. The neighbours are the padded array gathered at the start
  indices (i + a, j + b), transposed and flattened, so entry (n, c, kk, p) is xpad[n, c, p / 112 + kk / 7, p % 112 + kk % 7],
  which the reflection rule turns into an entry of x.
-/
import proofs.«121657_j40475771798075_1_alg».proof.Proof.RefPad
import Idealize.ShloMosaic.PureOps.Ideal
import Idealize.ShloMosaic.Lib.ValueIdxRank6
import Idealize.ShloMosaic.Lib.StableHlo.Predicate

noncomputable section

namespace Cert.ReferenceIdeal.RefValue

open Cert.ReferenceIdeal Cert.ReferenceIdeal.Gen Idealize.ShloMosaic Idealize.ShloMosaic.ValueIdx Cert.Unfold

/-! ## The centres -/

section AnyFloat
variable {F : FTy → Type} [FloatOps F]

/-- Entry (n, c, kk, p) of the centres is x[n, c, p / 112, p % 112], whatever the window offset kk. -/
theorem ctrs_apply (x : FVec F S4x64x112x112 .f32) (n : Fin 4) (c : Fin 64) (kk : Fin 49) (p : Fin 12544) :
    Term.ctrs x (ix4 n c kk p) = x (ix4 n c ⟨p.val / 112, row_lt p⟩ ⟨p.val % 112, col_lt p⟩) := by
  unfold Term.ctrs
  refine (broadcastInDim_apply _ _ _ (ix4 n c kk p) (ix4 n c (0 : Fin 1) p) ?_).trans ?_
  · intro a
    match a with
    | ⟨0, _⟩ => rfl
    | ⟨1, _⟩ => rfl
    | ⟨2, _⟩ => rfl
    | ⟨3, _⟩ => rfl
  · refine shapeCast_apply x _ (ix4 n c (0 : Fin 1) p) (ix4 n c ⟨p.val / 112, row_lt p⟩ ⟨p.val % 112, col_lt p⟩) ?_
    rw [Shape.rowMajor_val_four, Shape.rowMajor_val_four]
    show ((n.val * 64 + c.val) * 112 + p.val / 112) * 112 + p.val % 112 = ((n.val * 64 + c.val) * 1 + 0) * 12544 + p.val
    omega

end AnyFloat

/-! ## The table of start indices -/

/-- Entry (i, a) of the position table is the word i + a. -/
theorem posTable_apply (i : Fin 112) (a : Fin 7) : Term.posTable (ix2 i a) = BitVec.ofNat 32 (i.val + a.val) := by
  have h : Term.posTable (ix2 i a)
      = IntOp.addi (IntOp.muli (BitVec.ofNat 32 i.val) 1#32) (IntOp.muli (BitVec.ofNat 32 a.val) 1#32) := rfl
  rw [h]
  simp only [IntOp.addi, IntOp.muli, BitVec.mul_one, BitVec.ofNat_add]

/-- A small non-negative word is not below zero, so "add 118 where negative" leaves it as it is. -/
theorem wrap_apply {s : Shape} (T Z W : IVec s 32) (idx : s.Idx) (m : Nat) (hm : m < 2 ^ 31)
    (hT : T idx = BitVec.ofNat 32 m) (hZ : Z idx = 0#32) :
    select (cmpi .slt T Z) (addi T W) T idx = BitVec.ofNat 32 m := by
  show Scalar.select (IntOp.cmpi .slt (T idx) (Z idx)) (IntOp.addi (T idx) (W idx)) (T idx) = _
  rw [hT, hZ]
  have hlt : (BitVec.ofNat 32 m).toNat < 2 ^ 31 := by
    rw [BitVec.toNat_ofNat]; exact lt_of_le_of_lt (Nat.mod_le _ _) hm
  have h0 : IntOp.cmpi .slt (BitVec.ofNat 32 m) 0#32 = 0#1 := eq_zero_of_ne_one (by
    rw [StableHlo.Predicate.slt_iff_toNat hlt (by decide)]
    exact Nat.not_lt_zero _)
  rw [h0, select_zero]

/-- Component 0 of the start index at (i, a, j, b) is the word i + a. -/
theorem gidx_apply_zero (i : Fin 112) (a : Fin 7) (j : Fin 112) (b : Fin 7) :
    Term.gidx (ix5 i a j b (0 : Fin 2)) = BitVec.ofNat 32 (i.val + a.val) := by
  unfold Term.gidx
  refine (concatenate_pair_apply_left (t := S112x7x112x7x2) (s₁ := S112x7x112x7x1) (s₂ := S112x7x112x7x1) (4 : Fin 5) _ _ _ (ix5 i a j b (0 : Fin 2)) rfl (ix5 i a j b (0 : Fin 1)) ?_).trans ?_
  · intro b'
    match b' with
    | ⟨0, _⟩ => rfl
    | ⟨1, _⟩ => rfl
    | ⟨2, _⟩ => rfl
    | ⟨3, _⟩ => rfl
    | ⟨4, _⟩ => rfl
  refine (broadcastInDim_apply _ _ _ (ix5 i a j b (0 : Fin 1)) (ix4 i a j b) ?_).trans ?_
  · intro a'
    match a' with
    | ⟨0, _⟩ => rfl
    | ⟨1, _⟩ => rfl
    | ⟨2, _⟩ => rfl
    | ⟨3, _⟩ => rfl
  refine (broadcastInDim_apply _ _ _ (ix4 i a j b) (ix4 i a (0 : Fin 1) (0 : Fin 1)) ?_).trans ?_
  · intro a'
    match a' with
    | ⟨0, _⟩ => rfl
    | ⟨1, _⟩ => rfl
    | ⟨2, _⟩ => rfl
    | ⟨3, _⟩ => rfl
  refine wrap_apply _ _ _ _ (i.val + a.val) (by have := i.isLt; have := a.isLt; omega) ?_ rfl
  refine (broadcastInDim_apply _ _ _ (ix4 i a (0 : Fin 1) (0 : Fin 1)) (ix2 i a) ?_).trans (posTable_apply i a)
  intro a'
  match a' with
  | ⟨0, _⟩ => rfl
  | ⟨1, _⟩ => rfl

/-- Component 1 of the start index at (i, a, j, b) is the word j + b. -/
theorem gidx_apply_one (i : Fin 112) (a : Fin 7) (j : Fin 112) (b : Fin 7) :
    Term.gidx (ix5 i a j b (1 : Fin 2)) = BitVec.ofNat 32 (j.val + b.val) := by
  unfold Term.gidx
  refine (concatenate_pair_apply_right (t := S112x7x112x7x2) (s₁ := S112x7x112x7x1) (s₂ := S112x7x112x7x1) (4 : Fin 5) _ _ _ (ix5 i a j b (1 : Fin 2)) rfl rfl (ix5 i a j b (0 : Fin 1)) ?_ rfl).trans ?_
  · intro b' hb'
    match b', hb' with
    | ⟨0, _⟩, _ => rfl
    | ⟨1, _⟩, _ => rfl
    | ⟨2, _⟩, _ => rfl
    | ⟨3, _⟩, _ => rfl
    | ⟨4, _⟩, h => exact absurd rfl h
  refine (broadcastInDim_apply _ _ _ (ix5 i a j b (0 : Fin 1)) (ix4 i a j b) ?_).trans ?_
  · intro a'
    match a' with
    | ⟨0, _⟩ => rfl
    | ⟨1, _⟩ => rfl
    | ⟨2, _⟩ => rfl
    | ⟨3, _⟩ => rfl
  refine (broadcastInDim_apply _ _ _ (ix4 i a j b) (ix4 (0 : Fin 1) (0 : Fin 1) j b) ?_).trans ?_
  · intro a'
    match a' with
    | ⟨0, _⟩ => rfl
    | ⟨1, _⟩ => rfl
    | ⟨2, _⟩ => rfl
    | ⟨3, _⟩ => rfl
  refine wrap_apply _ _ _ _ (j.val + b.val) (by have := j.isLt; have := b.isLt; omega) ?_ rfl
  refine (broadcastInDim_apply _ _ _ (ix4 (0 : Fin 1) (0 : Fin 1) j b) (ix2 j b) ?_).trans (posTable_apply j b)
  intro a'
  match a' with
  | ⟨0, _⟩ => rfl
  | ⟨1, _⟩ => rfl

/-! ## The gather -/

section Gather
variable {α : Type}

/-- The gather's dimension numbers: offset axes 0 and 1, collapsed operand axes 2 and 3, which the two components of
    a start index address; slices of size 4 × 64 × 1 × 1. -/
abbrev gd : GatherDims S4x64x118x118 S112x7x112x7x2 S4x64x112x7x112x7 :=
  gather_S4x64x118x118_S112x7x112x7x2_S4x64x112x7x112x7_01_23_n_n_23_4_46411

/-- The start-indices index at which result index (n, c, i, a, j, b) reads component k of its start index. -/
theorem siIdx_apply (n : Fin 4) (c : Fin 64) (i : Fin 112) (a : Fin 7) (j : Fin 112) (b : Fin 7)
    (k : Fin gd.startIndexMap.length) (k' : Fin 2) (hk : k.val = k'.val) :
    gd.siIdx (ix6 n c i a j b) k = ix5 i a j b k' := by
  funext b'
  refine Fin.ext ?_
  match b' with
  | ⟨0, _⟩ => rfl
  | ⟨1, _⟩ => rfl
  | ⟨2, _⟩ => rfl
  | ⟨3, _⟩ => rfl
  | ⟨4, _⟩ => exact hk

/-- The gather read at (n, c, i, a, j, b): the operand's plane (n, c) at the two components of the start index at
    (i, a, j, b), each read signed and clamped into the padded axis. -/
theorem gather_apply (v : S4x64x118x118.Idx → α) (idx : IVec S112x7x112x7x2 32)
    (n : Fin 4) (c : Fin 64) (i : Fin 112) (a : Fin 7) (j : Fin 112) (b : Fin 7) :
    Host.gather gd v idx (ix6 n c i a j b)
      = v (ix4 n c ⟨min (idx (ix5 i a j b (0 : Fin 2))).toInt.toNat 117, by omega⟩
                   ⟨min (idx (ix5 i a j b (1 : Fin 2))).toInt.toNat 117, by omega⟩) := by
  unfold Host.gather
  refine congrArg v ?_
  funext ax
  refine Fin.ext ?_
  match ax with
  | ⟨0, _⟩ =>
    show gd.start (ix6 n c i a j b) idx 0 + gd.batchCoord (ix6 n c i a j b) 0 + gd.offCoord (ix6 n c i a j b) 0 = n.val
    rw [GatherDims.batchCoord_eq_zero _ _ _ List.not_mem_nil]
    have hs : gd.start (ix6 n c i a j b) idx 0 = 0 := by
      unfold GatherDims.start; exact dif_neg (by decide)
    have ho : gd.offCoord (ix6 n c i a j b) 0 = n.val := by
      unfold GatherDims.offCoord; rw [dif_pos (by decide)]; rfl
    rw [hs, ho]; omega
  | ⟨1, _⟩ =>
    show gd.start (ix6 n c i a j b) idx 1 + gd.batchCoord (ix6 n c i a j b) 1 + gd.offCoord (ix6 n c i a j b) 1 = c.val
    rw [GatherDims.batchCoord_eq_zero _ _ _ List.not_mem_nil]
    have hs : gd.start (ix6 n c i a j b) idx 1 = 0 := by
      unfold GatherDims.start; exact dif_neg (by decide)
    have ho : gd.offCoord (ix6 n c i a j b) 1 = c.val := by
      unfold GatherDims.offCoord; rw [dif_pos (by decide)]; rfl
    rw [hs, ho]; omega
  | ⟨2, _⟩ =>
    show gd.start (ix6 n c i a j b) idx 2 + gd.batchCoord (ix6 n c i a j b) 2 + gd.offCoord (ix6 n c i a j b) 2
      = min (idx (ix5 i a j b (0 : Fin 2))).toInt.toNat 117
    rw [GatherDims.batchCoord_eq_zero _ _ _ List.not_mem_nil, GatherDims.offCoord_eq_zero _ _ _ (by decide)]
    unfold GatherDims.start
    have hm : (2 : Fin 4) ∈ gd.startIndexMap := by decide
    have hsi := siIdx_apply n c i a j b ⟨List.idxOf (2 : Fin 4) gd.startIndexMap, List.idxOf_lt_length_iff.2 hm⟩ (0 : Fin 2) rfl
    rw [dif_pos hm, hsi]
    rfl
  | ⟨3, _⟩ =>
    show gd.start (ix6 n c i a j b) idx 3 + gd.batchCoord (ix6 n c i a j b) 3 + gd.offCoord (ix6 n c i a j b) 3
      = min (idx (ix5 i a j b (1 : Fin 2))).toInt.toNat 117
    rw [GatherDims.batchCoord_eq_zero _ _ _ List.not_mem_nil, GatherDims.offCoord_eq_zero _ _ _ (by decide)]
    unfold GatherDims.start
    have hm : (3 : Fin 4) ∈ gd.startIndexMap := by decide
    have hsi := siIdx_apply n c i a j b ⟨List.idxOf (3 : Fin 4) gd.startIndexMap, List.idxOf_lt_length_iff.2 hm⟩ (1 : Fin 2) rfl
    rw [dif_pos hm, hsi]
    rfl

end Gather

/-! ## The neighbours and the result -/

/-- A small word read signed and clamped to the padded axis is its value. -/
theorem clamp_word (m : Nat) (hm : m ≤ 117) : min (BitVec.ofNat 32 m).toInt.toNat 117 = m := by
  rw [StableHlo.Predicate.toInt_ofNat_small m (by omega)]
  omega

section AnyFloat
variable {F : FTy → Type} [FloatOps F]

/-- Entry (n, c, kk, p) of the neighbours is xpad[n, c, p / 112 + kk / 7, p % 112 + kk % 7]: the flattening reads
    (n, c, kk / 7, kk % 7, p / 112, p % 112), the transpose (n, c, p / 112, kk / 7, p % 112, kk % 7) of the gather. -/
theorem nbrs_apply (x : FVec F S4x64x112x112 .f32) (n : Fin 4) (c : Fin 64) (kk : Fin 49) (p : Fin 12544) :
    Term.nbrs x (ix4 n c kk p)
      = Term.xpad x (ix4 n c ⟨p.val / 112 + kk.val / 7, nrow_lt kk p⟩ ⟨p.val % 112 + kk.val % 7, ncol_lt kk p⟩) := by
  have hk : kk.val / 7 < 7 := by have := kk.isLt; omega
  have hk' : kk.val % 7 < 7 := Nat.mod_lt _ (by decide)
  unfold Term.nbrs
  refine (shapeCast_apply _ _ (ix4 n c kk p)
    (ix6 n c ⟨kk.val / 7, hk⟩ ⟨kk.val % 7, hk'⟩ ⟨p.val / 112, row_lt p⟩ ⟨p.val % 112, col_lt p⟩) ?_).trans ?_
  · rw [Shape.rowMajor_val_six, Shape.rowMajor_val_four]
    show ((((n.val * 64 + c.val) * 7 + kk.val / 7) * 7 + kk.val % 7) * 112 + p.val / 112) * 112 + p.val % 112
      = ((n.val * 64 + c.val) * 49 + kk.val) * 12544 + p.val
    omega
  refine (transpose_apply _ _ _
    (ix6 n c ⟨kk.val / 7, hk⟩ ⟨kk.val % 7, hk'⟩ ⟨p.val / 112, row_lt p⟩ ⟨p.val % 112, col_lt p⟩)
    (ix6 n c ⟨p.val / 112, row_lt p⟩ ⟨kk.val / 7, hk⟩ ⟨p.val % 112, col_lt p⟩ ⟨kk.val % 7, hk'⟩) ?_).trans ?_
  · intro b'
    match b' with
    | ⟨0, _⟩ => rfl
    | ⟨1, _⟩ => rfl
    | ⟨2, _⟩ => rfl
    | ⟨3, _⟩ => rfl
    | ⟨4, _⟩ => rfl
    | ⟨5, _⟩ => rfl
  refine (gather_apply _ _ n c _ _ _ _).trans ?_
  refine congrArg (Term.xpad x) ?_
  funext ax
  refine Fin.ext ?_
  match ax with
  | ⟨0, _⟩ => rfl
  | ⟨1, _⟩ => rfl
  | ⟨2, _⟩ =>
    show min (Term.gidx (ix5 (⟨p.val / 112, row_lt p⟩ : Fin 112) (⟨kk.val / 7, hk⟩ : Fin 7)
      (⟨p.val % 112, col_lt p⟩ : Fin 112) (⟨kk.val % 7, hk'⟩ : Fin 7) (0 : Fin 2))).toInt.toNat 117 = p.val / 112 + kk.val / 7
    rw [gidx_apply_zero]
    exact clamp_word _ (by have := nrow_lt kk p; omega)
  | ⟨3, _⟩ =>
    show min (Term.gidx (ix5 (⟨p.val / 112, row_lt p⟩ : Fin 112) (⟨kk.val / 7, hk⟩ : Fin 7)
      (⟨p.val % 112, col_lt p⟩ : Fin 112) (⟨kk.val % 7, hk'⟩ : Fin 7) (1 : Fin 2))).toInt.toNat 117 = p.val % 112 + kk.val % 7
    rw [gidx_apply_one]
    exact clamp_word _ (by have := ncol_lt kk p; omega)

end AnyFloat

theorem refOut_apply (x : FVec Ideal S4x64x112x112 .f32) (n : Fin 4) (c : Fin 64) (kk : Fin 49) (p : Fin 12544) :
    Term.refOut (F := Ideal) x (ix4 n c kk p) = Gc x n c kk p := by
  unfold Term.refOut
  rw [subf_apply, ctrs_apply, nbrs_apply, RefPad.xpad_apply]
  rfl

theorem refOut_eq (x : FVec Ideal S4x64x112x112 .f32) : Term.refOut (F := Ideal) x = G x := by
  funext y
  rw [eq_ix4 y]
  exact refOut_apply x _ _ _ _

end Cert.ReferenceIdeal.RefValue

end
-- ==== Proof.lean ====
/-
  The certificate of the window-difference operator.

  Both programs compute, from x : f32[4, 64, 112, 112] reflect-padded by three positions on each side of its two image
  axes,  out[n, c, 7·a + b, 112·i + j] = x[n, c, i, j] - xpad[n, c, i + a, j + b]  (Proof/Spec.lean: `Cert.Unfold.G`).

  The kernel program flattens the 256 planes, pads them on the host, and runs one region over 32 blocks of eight
  planes whose body stores, for each of the 49 window offsets, the centre slice minus the shifted slice; its frame is
  the generated one, and its result is read off that frame's run: the body's 49 stored pieces are one function of the
  block (Proof/KerBody.lean), the blocks tile the output array (Proof/KerValue.lean), the padded planes read the
  argument at the reflected positions (Proof/KerPad.lean), and the final reshape keeps row-major positions.
  The reference pads the four-dimensional array the same way, gathers it at the table of positions `(i + a, j + b)`,
  moves the window axes in front, flattens and subtracts: its run is the list of its host operations
  (Proof/RefRun.lean) and its result the same function, index by index (Proof/RefPad.lean, Proof/RefValue.lean).
  No law of the extended reals is needed: the two sides subtract the same two entries of x, so the precondition is
  never opened. The ideal pass rewrote nothing, so `preserves` is `True`.
-/
import proofs.«121657_j40475771798075_1_alg».proof.Defs
import proofs.«121657_j40475771798075_1_alg».proof.Proof.Gen.Kernel
import proofs.«121657_j40475771798075_1_alg».proof.Proof.Gen.Kernel.Skeleton
import proofs.«121657_j40475771798075_1_alg».proof.Proof.Gen.Kernel.Launch
import proofs.«121657_j40475771798075_1_alg».proof.Proof.Gen.Kernel.Points
import proofs.«121657_j40475771798075_1_alg».proof.Proof.Gen.Kernel.Frame
import proofs.«121657_j40475771798075_1_alg».proof.Proof.Gen.KernelIdeal
import proofs.«121657_j40475771798075_1_alg».proof.Proof.Gen.KernelIdeal.Skeleton
import proofs.«121657_j40475771798075_1_alg».proof.Proof.Gen.KernelIdeal.Launch
import proofs.«121657_j40475771798075_1_alg».proof.Proof.Gen.KernelIdeal.Points
import proofs.«121657_j40475771798075_1_alg».proof.Proof.Gen.KernelIdeal.Frame
import proofs.«121657_j40475771798075_1_alg».proof.Proof.Gen.ReferenceIdeal
import proofs.«121657_j40475771798075_1_alg».proof.Proof.Gen.Pre_finite_inputs
import proofs.«121657_j40475771798075_1_alg».proof.Proof.KerValue
import proofs.«121657_j40475771798075_1_alg».proof.Proof.RefRun
import proofs.«121657_j40475771798075_1_alg».proof.Proof.RefValue
import Idealize.ShloMosaic.Adequacy
import Idealize.ShloMosaic.Init

noncomputable section

namespace Cert.Proof

open Idealize.ShloMosaic Idealize.SL.Sem

/-- The word-level kernel program runs and leaves its argument alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument alone: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the argument both programs end with the result buffer at `G` of the argument. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
